-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x3 : Shape := ⟨2, ![65536, 3]⟩
abbrev S4096x3 : Shape := ⟨2, ![4096, 3]⟩
abbrev S4096x1024 : Shape := ⟨2, ![4096, 1024]⟩
abbrev S4096 : Shape := ⟨1, ![4096]⟩
abbrev S7x1024 : Shape := ⟨2, ![7, 1024]⟩
abbrev S7 : Shape := ⟨1, ![7]⟩
abbrev S65536x2 : Shape := ⟨2, ![65536, 2]⟩
abbrev S65536x1 : Shape := ⟨2, ![65536, 1]⟩
abbrev S_ : Shape := ⟨0, ![]⟩

class Facts : Prop where
  bcast_S_S65536x3 : S_.BroadcastsInDim S65536x3 (![] : Fin 0 → Fin S65536x3.rank)
  reducesTo_S65536x3_S_d0_1 : S65536x3.ReducesTo [0, 1] S_
  h_S_ : 0 < S_.numel
  bcast_S_S4096x3 : S_.BroadcastsInDim S4096x3 (![] : Fin 0 → Fin S4096x3.rank)
  reducesTo_S4096x3_S_d0_1 : S4096x3.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S7x1024 : S_.BroadcastsInDim S7x1024 (![] : Fin 0 → Fin S7x1024.rank)
  reducesTo_S7x1024_S_d0_1 : S7x1024.ReducesTo [0, 1] S_
  bcast_S_S7 : S_.BroadcastsInDim S7 (![] : Fin 0 → Fin S7.rank)
  reducesTo_S7_S_d0 : S7.ReducesTo [0] S_
  bcast_S_S65536x2 : S_.BroadcastsInDim S65536x2 (![] : Fin 0 → Fin S65536x2.rank)
  reducesTo_S65536x2_S_d0_1 : S65536x2.ReducesTo [0, 1] S_
  bcast_S_S65536x1 : S_.BroadcastsInDim S65536x1 (![] : Fin 0 → Fin S65536x1.rank)
  reducesTo_S65536x1_S_d0_1 : S65536x1.ReducesTo [0, 1] S_

variable [Facts]

def fn_part2 {F : FTy → Type} [FloatOps F] (main_arg7 : FVec F S65536x2 .f32) (main_arg8 : FVec F S65536x1 .f32) (main_v33 : IVec S_ 1) : IVec S_ 1 :=
  let main_v34 : FVec F S65536x2 .f32 := Host.absf main_arg7
  let main_cst_12 : FVec F S_ .f32 := constant S_ .f32 0x7F800000#32
  let main_v35 : FVec F S65536x2 .f32 := broadcastInDim S65536x2 ![] bcast_S_S65536x2 main_cst_12
  let main_v36 : IVec S65536x2 1 := cmpf .olt main_v34 main_v35
  let main_c_13 : IVec S_ 1 := constantI S_ 1 1#1
  let main_v37 : IVec S_ 1 := (fun x v => Host.reduce IntOp.andi x v reducesTo_S65536x2_S_d0_1 h_S_) main_v36 main_c_13
  let main_v38 : IVec S_ 1 := andi main_v33 main_v37
  let main_v39 : FVec F S65536x1 .f32 := Host.absf main_arg8
  let main_cst_14 : FVec F S_ .f32 := constant S_ .f32 0x7F800000#32
  let main_v40 : FVec F S65536x1 .f32 := broadcastInDim S65536x1 ![] bcast_S_S65536x1 main_cst_14
  let main_v41 : IVec S65536x1 1 := cmpf .olt main_v39 main_v40
  let main_c_15 : IVec S_ 1 := constantI S_ 1 1#1
  let main_v42 : IVec S_ 1 := (fun x v => Host.reduce IntOp.andi x v reducesTo_S65536x1_S_d0_1 h_S_) main_v41 main_c_15
  let main_v43 : IVec S_ 1 := andi main_v38 main_v42
  main_v43

def fn_part1 {F : FTy → Type} [FloatOps F] (main_arg4 : FVec F S4096 .f32) (main_arg5 : FVec F S7x1024 .f32) (main_arg6 : FVec F S7 .f32) (main_arg7 : FVec F S65536x2 .f32) (main_arg8 : FVec F S65536x1 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S7x1024 .f32 := Host.absf main_arg5
  let main_cst_8 : FVec F S_ .f32 := constant S_ .f32 0x7F800000#32
  let main_v25 : FVec F S7x1024 .f32 := broadcastInDim S7x1024 ![] bcast_S_S7x1024 main_cst_8
  let main_v26 : IVec S7x1024 1 := cmpf .olt main_v24 main_v25
  let main_c_9 : IVec S_ 1 := constantI S_ 1 1#1
  let main_v27 : IVec S_ 1 := (fun x v => Host.reduce IntOp.andi x v reducesTo_S7x1024_S_d0_1 h_S_) main_v26 main_c_9
  let main_v28 : IVec S_ 1 := andi main_v23 main_v27
  let main_v29 : FVec F S7 .f32 := Host.absf main_arg6
  let main_cst_10 : FVec F S_ .f32 := constant S_ .f32 0x7F800000#32
  let main_v30 : FVec F S7 .f32 := broadcastInDim S7 ![] bcast_S_S7 main_cst_10
  let main_v31 : IVec S7 1 := cmpf .olt main_v29 main_v30
  let main_c_11 : IVec S_ 1 := constantI S_ 1 1#1
  let main_v32 : IVec S_ 1 := (fun x v => Host.reduce IntOp.andi x v reducesTo_S7_S_d0 h_S_) main_v31 main_c_11
  let main_v33 : IVec S_ 1 := andi main_v28 main_v32
  fn_part2 (F := F) main_arg7 main_arg8 main_v33

def fn {F : FTy → Type} [FloatOps F] (main_arg0 : FVec F S65536x3 .f32) (main_arg1 : FVec F S4096x3 .f32) (main_arg2 : FVec F S4096x1024 .f32) (main_arg3 : FVec F S4096 .f32) (main_arg4 : FVec F S4096 .f32) (main_arg5 : FVec F S7x1024 .f32) (main_arg6 : FVec F S7 .f32) (main_arg7 : FVec F S65536x2 .f32) (main_arg8 : FVec F S65536x1 .f32) : IVec S_ 1 :=
  let main_v0 : FVec F S65536x3 .f32 := Host.absf main_arg0
  let main_cst : FVec F S_ .f32 := constant S_ .f32 0x7F800000#32
  let main_v1 : FVec F S65536x3 .f32 := broadcastInDim S65536x3 ![] bcast_S_S65536x3 main_cst
  let main_v2 : IVec S65536x3 1 := cmpf .olt main_v0 main_v1
  let main_c : IVec S_ 1 := constantI S_ 1 1#1
  let main_v3 : IVec S_ 1 := (fun x v => Host.reduce IntOp.andi x v reducesTo_S65536x3_S_d0_1 h_S_) main_v2 main_c
  let main_v4 : FVec F S4096x3 .f32 := Host.absf main_arg1
  let main_cst_0 : FVec F S_ .f32 := constant S_ .f32 0x7F800000#32
  let main_v5 : FVec F S4096x3 .f32 := broadcastInDim S4096x3 ![] bcast_S_S4096x3 main_cst_0
  let main_v6 : IVec S4096x3 1 := cmpf .olt main_v4 main_v5
  let main_c_1 : IVec S_ 1 := constantI S_ 1 1#1
  let main_v7 : IVec S_ 1 := (fun x v => Host.reduce IntOp.andi x v reducesTo_S4096x3_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_v13 main_v16
-- ==== Kernel.lean ====
abbrev S65536x3 : Shape := ⟨2, ![65536, 3]⟩
abbrev S4096x3 : Shape := ⟨2, ![4096, 3]⟩
abbrev S4096x1024 : Shape := ⟨2, ![4096, 1024]⟩
abbrev S4096 : Shape := ⟨1, ![4096]⟩
abbrev S7x1024 : Shape := ⟨2, ![7, 1024]⟩
abbrev S7 : Shape := ⟨1, ![7]⟩
abbrev S65536x2 : Shape := ⟨2, ![65536, 2]⟩
abbrev S65536x1 : Shape := ⟨2, ![65536, 1]⟩
abbrev S3x4096 : Shape := ⟨2, ![3, 4096]⟩
abbrev S1024x7 : Shape := ⟨2, ![1024, 7]⟩
abbrev S1x4096 : Shape := ⟨2, ![1, 4096]⟩
abbrev S1x7 : Shape := ⟨2, ![1, 7]⟩
abbrev S256x3 : Shape := ⟨2, ![256, 3]⟩
abbrev S256x2 : Shape := ⟨2, ![256, 2]⟩
abbrev S256x1 : Shape := ⟨2, ![256, 1]⟩
abbrev S256x4096 : Shape := ⟨2, ![256, 4096]⟩
abbrev S256x1024 : Shape := ⟨2, ![256, 1024]⟩
abbrev S256x7 : Shape := ⟨2, ![256, 7]⟩

abbrev nBuf : Space → Nat
  | .hbm => 17
  | .vmem => 12
  | .smem => 0
  | _ => 0

abbrev bufTy : (tb : Table) → Fin (tcTables nBuf tb) → BufTy
  | .hbm, ⟨0, _⟩ => ⟨S65536x3, .f32⟩
  | .hbm, ⟨1, _⟩ => ⟨S4096x3, .f32⟩
  | .hbm, ⟨2, _⟩ => ⟨S4096x1024, .f32⟩
  | .hbm, ⟨3, _⟩ => ⟨S4096, .f32⟩
  | .hbm, ⟨4, _⟩ => ⟨S4096, .f32⟩
  | .hbm, ⟨5, _⟩ => ⟨S7x1024, .f32⟩
  | .hbm, ⟨6, _⟩ => ⟨S7, .f32⟩
  | .hbm, ⟨7, _⟩ => ⟨S65536x2, .f32⟩
  | .hbm, ⟨8, _⟩ => ⟨S65536x1, .f32⟩
  | .hbm, ⟨9, _⟩ => ⟨S3x4096, .f32⟩
  | .hbm, ⟨10, _⟩ => ⟨S3x4096, .bf16⟩
  | .hbm, ⟨11, _⟩ => ⟨S1024x7, .f32⟩
  | .hbm, ⟨12, _⟩ => ⟨S1024x7, .bf16⟩
  | .hbm, ⟨13, _⟩ => ⟨S4096, .f32⟩
  | .hbm, ⟨14, _⟩ => ⟨S1x4096, .f32⟩
  | .hbm, ⟨15, _⟩ => ⟨S1x7, .f32⟩
  | .hbm, ⟨16, _⟩ => ⟨S65536x3, .f32⟩
  | .local _ .vmem, ⟨0, _⟩ => ⟨S256x3, .f32⟩
  | .local _ .vmem, ⟨1, _⟩ => ⟨S256x3, .f32⟩
  | .local _ .vmem, ⟨2, _⟩ => ⟨S3x4096, .bf16⟩
  | .local _ .vmem, ⟨3, _⟩ => ⟨S1x4096, .f32⟩
  | .local _ .vmem, ⟨4, _⟩ => ⟨S1024x7, .bf16⟩
  | .local _ .vmem, ⟨5, _⟩ => ⟨S1x7, .f32⟩
  | .local _ .vmem, ⟨6, _⟩ => ⟨S256x2, .f32⟩
  | .local _ .vmem, ⟨7, _⟩ => ⟨S256x2, .f32⟩
  | .local _ .vmem, ⟨8, _⟩ => ⟨S256x1, .f32⟩
  | .local _ .vmem, ⟨9, _⟩ => ⟨S256x1, .f32⟩
  | .local _ .vmem, ⟨10, _⟩ => ⟨S256x3, .f32⟩
  | .local _ .vmem, ⟨11, _⟩ => ⟨S256x3, .f32⟩
  | _, _ => ⟨S65536x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x7 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x7 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S4096x3_S3x4096_1_0 : S4096x3.Transposes [1, 0] S3x4096
  bitsLt_bf16_f32 : FTy.bits .bf16 < FTy.bits .f32
  transposes_S7x1024_S1024x7_1_0 : S7x1024.Transposes [1, 0] S1024x7
  shapeCasts_S4096_S1x4096 : S4096.ShapeCasts S1x4096
  shapeCasts_S7_S1x7 : S7.ShapeCasts S1x7
  inb_S256x3_S256x3_0_0 : ∀ a, (![0, 0] : Fin 2 → Nat) a + S256x3.size a ≤ S256x3.size a
  h_S256x3 : 0 < S256x3.numel
  inb_S3x4096_S3x4096_0_0 : ∀ a, (![0, 0] : Fin 2 → Nat) a + S3x4096.size a ≤ S3x4096.size a
  h_S3x4096 : 0 < S3x4096.numel
  shapeCasts_S3x4096_S3x4096 : S3x4096.ShapeCasts S3x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_2048_S256x1024 : S256x4096.Slices ![0, 2048] S256x1024
  slices_S256x4096_o0_3072_S256x1024 : S256x4096.Slices ![0, 3072] S256x1024
  inb_S1024x7_S1024x7_0_0 : ∀ a, (![0, 0] : Fin 2 → Nat) a + S1024x7.size a ≤ S1024x7.size a
  h_S1024x7 : 0 < S1024x7.numel
  shapeCasts_S1024x7_S1024x7 : S1024x7.ShapeCasts S1024x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S256x7 : S1x7.Broadcasts S256x7
  slices_S256x7_o0_0_S256x1 : S256x7.Slices ![0, 0] S256x1
  slices_S256x7_o0_1_S256x1 : S256x7.Slices ![0, 1] S256x1
  slices_S256x7_o0_2_S256x1 : S256x7.Slices ![0, 2] S256x1
  slices_S256x7_o0_3_S256x1 : S256x7.Slices ![0, 3] S256x1
  slices_S256x7_o0_4_S256x1 : S256x7.Slices ![0, 4] S256x1
  slices_S256x7_o0_5_S256x1 : S256x7.Slices ![0, 5] S256x1
  inb_S256x2_S256x1_0_0 : ∀ a, (![0, 0] : Fin 2 → Nat) a + S256x1.size a ≤ S256x2.size a
  h_S256x1 : 0 < S256x1.numel
  inb_S256x2_S256x1_0_1 : ∀ a, (![0, 1] : Fin 2 → Nat) a + S256x1.size a ≤ S256x2.size a
  inb_S256x1_S256x1_0_0 : ∀ a, (![0, 0] : Fin 2 → Nat) a + S256x1.size a ≤ S256x1.size a
  natLt_1_32 : 1 < 32
  inb_S256x3_S256x1_0_0 : ∀ a, (![0, 0] : Fin 2 → Nat) a + S256x1.size a ≤ S256x3.size a
  inb_S256x3_S256x1_0_1 : ∀ a, (![0, 1] : Fin 2 → Nat) a + S256x1.size a ≤ S256x3.size a
  inb_S256x3_S256x1_0_2 : ∀ a, (![0, 2] : Fin 2 → Nat) a + S256x1.size a ≤ S256x3.size a
  dot_S256x3_S3x4096_S256x4096_1_0_0_1_n_n_wf : DotDims.WF S256x3 S3x4096 S256x4096 [1] [0] [0] [1] [] []
  dot_S256x1024_S1024x7_S256x7_1_0_0_1_n_n_wf : DotDims.WF S256x1024 S1024x7 S256x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3.size a ≤ S65536x3.size a
  hwx0_0 : ∀ i : grid0.Coords, EltTy.bits .f32 = 32 ∨ (Rect.block (s := S65536x3) S256x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x4096.size a ≤ S3x4096.size a
  hwx0_1 : ∀ i : grid0.Coords, EltTy.bits .bf16 = 32 ∨ (Rect.block (s := S3x4096) S3x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x7.size a ≤ S1024x7.size a
  hwx0_3 : ∀ i : grid0.Coords, EltTy.bits .bf16 = 32 ∨ (Rect.block (s := S1024x7) S1024x7.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x7.size a ≤ S1x7.size a
  hwx0_4 : ∀ i : grid0.Coords, EltTy.bits .f32 = 32 ∨ (Rect.block (s := S1x7) S1x7.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2.size a ≤ S65536x2.size a
  hwx0_5 : ∀ i : grid0.Coords, EltTy.bits .f32 = 32 ∨ (Rect.block (s := S65536x2) S256x2.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S65536x1.size a
  hwx0_6 : ∀ i : grid0.Coords, EltTy.bits .f32 = 32 ∨ (Rect.block (s := S65536x1) S256x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x3.size a ≤ S65536x3.size a
  hwx0_7 : ∀ i : grid0.Coords, EltTy.bits .f32 = 32 ∨ (Rect.block (s := S65536x3) S256x3.size (cc0_transform_7 i) (hinb0_7 i)).WholeWords (EltTy.packing .f32)

variable [Facts₀]

def dot_S256x3_S3x4096_S256x4096_1_0_0_1_n_n : DotDims S256x3 S3x4096 S256x4096 where
  lhsContracting := [1]
  rhsContracting := [0]
  lhsNonContracting := [0]
  rhsNonContracting := [1]
  lhsBatch := []
  rhsBatch := []
  wf := dot_S256x3_S3x4096_S256x4096_1_0_0_1_n_n_wf
def dot_S256x1024_S1024x7_S256x7_1_0_0_1_n_n : DotDims S256x1024 S1024x7 S256x7 where
  lhsContracting := [1]
  rhsContracting := [0]
  lhsNonContracting := [0]
  rhsNonContracting := [1]
  lhsBatch := []
  rhsBatch := []
  wf := dot_S256x1024_S1024x7_S256x7_1_0_0_1_n_n_wf

abbrev win0_0 : Pipeline.Window sig grid0 :=
  Pipeline.Window.ofSpec (Memref.whole main_arg0) S256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x7.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x7.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S256x2.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S256x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7) S256x3.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x3 : Shape := ⟨2, ![65536, 3]⟩
abbrev S4096x3 : Shape := ⟨2, ![4096, 3]⟩
abbrev S4096x1024 : Shape := ⟨2, ![4096, 1024]⟩
abbrev S4096 : Shape := ⟨1, ![4096]⟩
abbrev S7x1024 : Shape := ⟨2, ![7, 1024]⟩
abbrev S7 : Shape := ⟨1, ![7]⟩
abbrev S65536x2 : Shape := ⟨2, ![65536, 2]⟩
abbrev S65536x1 : Shape := ⟨2, ![65536, 1]⟩
abbrev S3x4096 : Shape := ⟨2, ![3, 4096]⟩
abbrev S65536x4096 : Shape := ⟨2, ![65536, 4096]⟩
abbrev S1x4096 : Shape := ⟨2, ![1, 4096]⟩
abbrev S65536x1024 : Shape := ⟨2, ![65536, 1024]⟩
abbrev S_ : Shape := ⟨0, ![]⟩
abbrev S1024x7 : Shape := ⟨2, ![1024, 7]⟩
abbrev S65536x7 : Shape := ⟨2, ![65536, 7]⟩
abbrev S1x7 : Shape := ⟨2, ![1, 7]⟩
abbrev S65536 : Shape := ⟨1, ![65536]⟩

abbrev nBuf : Space → Nat
  | .hbm => 96
  | .vmem => 0
  | .smem => 0
  | _ => 0

abbrev bufTy : (tb : Table) → Fin (tcTables nBuf tb) → BufTy
  | .hbm, ⟨0, _⟩ => ⟨S65536x3, .f32⟩
  | .hbm, ⟨1, _⟩ => ⟨S4096x3, .f32⟩
  | .hbm, ⟨2, _⟩ => ⟨S4096x1024, .f32⟩
  | .hbm, ⟨3, _⟩ => ⟨S4096, .f32⟩
  | .hbm, ⟨4, _⟩ => ⟨S4096, .f32⟩
  | .hbm, ⟨5, _⟩ => ⟨S7x1024, .f32⟩
  | .hbm, ⟨6, _⟩ => ⟨S7, .f32⟩
  | .hbm, ⟨7, _⟩ => ⟨S65536x2, .f32⟩
  | .hbm, ⟨8, _⟩ => ⟨S65536x1, .f32⟩
  | .hbm, ⟨9, _⟩ => ⟨S3x4096, .f32⟩
  | .hbm, ⟨10, _⟩ => ⟨S65536x4096, .f32⟩
  | .hbm, ⟨11, _⟩ => ⟨S4096, .f32⟩
  | .hbm, ⟨12, _⟩ => ⟨S1x4096, .f32⟩
  | .hbm, ⟨13, _⟩ => ⟨S65536x4096, .f32⟩
  | .hbm, ⟨14, _⟩ => ⟨S65536x4096, .f32⟩
  | .hbm, ⟨15, _⟩ => ⟨S65536x1024, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S_, .f32⟩
  | .hbm, ⟨22, _⟩ => ⟨S65536x1024, .f32⟩
  | .hbm, ⟨23, _⟩ => ⟨S65536x1024, .f32⟩
  | .hbm, ⟨24, _⟩ => ⟨S_, .f32⟩
  | .hbm, ⟨25, _⟩ => ⟨S65536x1024, .f32⟩
  | .hbm, ⟨26, _⟩ => ⟨S65536x1024, .f32⟩
  | .hbm, ⟨27, _⟩ => ⟨S65536x1024, .f32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S_, .f32⟩
  | .hbm, ⟨32, _⟩ => ⟨S65536x1024, .f32⟩
  | .hbm, ⟨33, _⟩ => ⟨S65536x1024, .f32⟩
  | .hbm, ⟨34, _⟩ => ⟨S_, .f32⟩
  | .hbm, ⟨35, _⟩ => ⟨S65536x1024, .f32⟩
  | .hbm, ⟨36, _⟩ => ⟨S65536x1024, .f32⟩
  | .hbm, ⟨37, _⟩ => ⟨S65536x1024, .f32⟩
  | .hbm, ⟨38, _⟩ => ⟨S65536x1024, .f32⟩
  | .hbm, ⟨39, _⟩ => ⟨S1024x7, .f32⟩
  | .hbm, ⟨40, _⟩ => ⟨S65536x7, .f32⟩
  | .hbm, ⟨41, _⟩ => ⟨S1x7, .f32⟩
  | .hbm, ⟨42, _⟩ => ⟨S65536x7, .f32⟩
  | .hbm, ⟨43, _⟩ => ⟨S65536x7, .f32⟩
  | .hbm, ⟨44, _⟩ => ⟨S65536x1, .f32⟩
  | .hbm, ⟨45, _⟩ => ⟨S65536, .f32⟩
  | .hbm, ⟨46, _⟩ => ⟨S65536x1, .f32⟩
  | .hbm, ⟨47, _⟩ => ⟨S65536, .f32⟩
  | .hbm, ⟨48, _⟩ => ⟨S65536x1, .f32⟩
  | .hbm, ⟨49, _⟩ => ⟨S65536, .f32⟩
  | .hbm, ⟨50, _⟩ => ⟨S65536x1, .f32⟩
  | .hbm, ⟨51, _⟩ => ⟨S65536, .f32⟩
  | .hbm, ⟨52, _⟩ => ⟨S65536x1, .f32⟩
  | .hbm, ⟨53, _⟩ => ⟨S65536, .f32⟩
  | .hbm, ⟨54, _⟩ => ⟨S65536x1, .f32⟩
  | .hbm, ⟨55, _⟩ => ⟨S65536, .f32⟩
  | .hbm, ⟨56, _⟩ => ⟨S65536x1, .f32⟩
  | .hbm, ⟨57, _⟩ => ⟨S65536, .f32⟩
  | .hbm, ⟨58, _⟩ => ⟨S65536, .f32⟩
  | .hbm, ⟨59, _⟩ => ⟨S65536, .f32⟩
  | .hbm, ⟨60, _⟩ => ⟨S_, .f32⟩
  | .hbm, ⟨61, _⟩ => ⟨S65536, .f32⟩
  | .hbm, ⟨62, _⟩ => ⟨S65536, .f32⟩
  | .hbm, ⟨63, _⟩ => ⟨S_, .f32⟩
  | .hbm, ⟨64, _⟩ => ⟨S65536, .f32⟩
  | .hbm, ⟨65, _⟩ => ⟨S65536, .f32⟩
  | .hbm, ⟨66, _⟩ => ⟨S65536, .f32⟩
  | .hbm, ⟨67, _⟩ => ⟨S65536, .f32⟩
  | .hbm, ⟨68, _⟩ => ⟨S65536, .f32⟩
  | .hbm, ⟨69, _⟩ => ⟨S65536x1, .f32⟩
  | .hbm, ⟨70, _⟩ => ⟨S65536, .f32⟩
  | .hbm, ⟨71, _⟩ => ⟨S65536x1, .f32⟩
  | .hbm, ⟨72, _⟩ => ⟨S65536, .f32⟩
  | .hbm, ⟨73, _⟩ => ⟨S65536, .f32⟩
  | .hbm, ⟨74, _⟩ => ⟨S65536, .f32⟩
  | .hbm, ⟨75, _⟩ => ⟨S65536, .f32⟩
  | .hbm, ⟨76, _⟩ => ⟨S65536, .f32⟩
  | .hbm, ⟨77, _⟩ => ⟨S65536, .f32⟩
  | .hbm, ⟨78, _⟩ => ⟨S65536, .f32⟩
  | .hbm, ⟨79, _⟩ => ⟨S_, .f32⟩
  | .hbm, ⟨80, _⟩ => ⟨S65536, .f32⟩
  | .hbm, ⟨81, _⟩ => ⟨S65536, .f32⟩
  | .hbm, ⟨82, _⟩ => ⟨S_, .f32⟩
  | .hbm, ⟨83, _⟩ => ⟨S65536, .f32⟩
  | .hbm, ⟨84, _⟩ => ⟨S65536, .f32⟩
  | .hbm, ⟨85, _⟩ => ⟨S65536, .f32⟩
  | .hbm, ⟨86, _⟩ => ⟨S65536, .f32⟩
  | .hbm, ⟨87, _⟩ => ⟨S65536, .f32⟩
  | .hbm, ⟨88, _⟩ => ⟨S65536, .f32⟩
  | .hbm, ⟨89, _⟩ => ⟨S65536, .f32⟩
  | .hbm, ⟨90, _⟩ => ⟨S65536, .i1⟩
  | .hbm, ⟨91, _⟩ => ⟨S65536, .f32⟩
  | .hbm, ⟨92, _⟩ => ⟨S65536x1, .f32⟩
  | .hbm, ⟨93, _⟩ => ⟨S65536x1, .f32⟩
  | .hbm, ⟨94, _⟩ => ⟨S65536x1, .f32⟩
  | .hbm, ⟨95, _⟩ => ⟨S65536x3, .f32⟩
  | _, _ => ⟨S65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_3 : Ref sig .tc := ⟨.hbm, 60, rfl⟩
abbrev main_v47 : Ref sig .tc := ⟨.hbm, 61, rfl⟩
abbrev main_v48 : Ref sig .tc := ⟨.hbm, 62, rfl⟩
abbrev main_cst_4 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_5 : Ref sig .tc := ⟨.hbm, 79, rfl⟩
abbrev main_v64 : Ref sig .tc := ⟨.hbm, 80, rfl⟩
abbrev main_v65 : Ref sig .tc := ⟨.hbm, 81, rfl⟩
abbrev main_cst_6 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩

abbrev nD : Nat := 1
abbrev τ : Topo := Topo.v7x

variable {F : FTy → Type} [FloatOps F]

class Facts₀ : Prop where
  transposes_S4096x3_S3x4096_1_0 : S4096x3.Transposes [1, 0] S3x4096
  bcast_S4096_S1x4096_1 : S4096.BroadcastsInDim S1x4096 (![1] : Fin 1 → Fin S1x4096.rank)
  bcast_S1x4096_S65536x4096_0_1 : S1x4096.BroadcastsInDim S65536x4096 (![0, 1] : Fin 2 → Fin S65536x4096.rank)
  slices_S65536x4096_S65536x1024_0_0 : S65536x4096.Slices ![0, 0] S65536x1024
  slices_S65536x4096_S65536x1024_0_1024 : S65536x4096.Slices ![0, 1024] S65536x1024
  slices_S65536x4096_S65536x1024_0_2048 : S65536x4096.Slices ![0, 2048] S65536x1024
  slices_S65536x4096_S65536x1024_0_3072 : S65536x4096.Slices ![0, 3072] S65536x1024
  bcast_S_S65536x1024 : S_.BroadcastsInDim S65536x1024 (![] : Fin 0 → Fin S65536x1024.rank)
  transposes_S7x1024_S1024x7_1_0 : S7x1024.Transposes [1, 0] S1024x7
  bcast_S7_S1x7_1 : S7.BroadcastsInDim S1x7 (![1] : Fin 1 → Fin S1x7.rank)
  bcast_S1x7_S65536x7_0_1 : S1x7.BroadcastsInDim S65536x7 (![0, 1] : Fin 2 → Fin S65536x7.rank)
  slices_S65536x7_S65536x1_0_0 : S65536x7.Slices ![0, 0] S65536x1
  shapeCasts_S65536x1_S65536 : S65536x1.ShapeCasts S65536
  slices_S65536x7_S65536x1_0_1 : S65536x7.Slices ![0, 1] S65536x1
  slices_S65536x7_S65536x1_0_2 : S65536x7.Slices ![0, 2] S65536x1
  slices_S65536x7_S65536x1_0_3 : S65536x7.Slices ![0, 3] S65536x1
  slices_S65536x7_S65536x1_0_4 : S65536x7.Slices ![0, 4] S65536x1
  slices_S65536x7_S65536x1_0_5 : S65536x7.Slices ![0, 5] S65536x1
  slices_S65536x7_S65536x1_0_6 : S65536x7.Slices ![0, 6] S65536x1
  bcast_S_S65536 : S_.BroadcastsInDim S65536 (![] : Fin 0 → Fin S65536.rank)
  slices_S65536x2_S65536x1_0_0 : S65536x2.Slices ![0, 0] S65536x1
  slices_S65536x2_S65536x1_0_1 : S65536x2.Slices ![0, 1] S65536x1
  bcast_S65536_S65536x1_0 : S65536.BroadcastsInDim S65536x1 (![0] : Fin 1 → Fin S65536x1.rank)
  concatenates_S65536x1_S65536x1_S65536x1_S65536x3_d1 : Shape.Concatenates [S65536x1, S65536x1, S65536x1] S65536x3 1
  dot_S65536x3_S3x4096_S65536x4096_1_0_0_1_n_n_wf : DotDims.WF S65536x3 S3x4096 S65536x4096 [1] [0] [0] [1] [] []
  dot_S65536x1024_S1024x7_S65536x7_1_0_0_1_n_n_wf : DotDims.WF S65536x1024 S1024x7 S65536x7 [1] [0] [0] [1] [] []

variable [Facts₀]

def dot_S65536x3_S3x4096_S65536x4096_1_0_0_1_n_n : DotDims S65536x3 S3x4096 S65536x4096 where
  lhsContracting := [1]
  rhsContracting := [0]
  lhsNonContracting := [0]
  rhsNonContracting := [1]
  lhsBatch := []
  rhsBatch := []
  wf := dot_S65536x3_S3x4096_S65536x4096_1_0_0_1_n_n_wf
def dot_S65536x1024_S1024x7_S65536x7_1_0_0_1_n_n : DotDims S65536x1024 S1024x7 S65536x7 where
  lhsContracting := [1]
  rhsContracting := [0]
  lhsNonContracting := [0]
  rhsNonContracting := [1]
  lhsBatch := []
  rhsBatch := []
  wf := dot_S65536x1024_S1024x7_S65536x7_1_0_0_1_n_n_wf

class Facts : Prop extends Facts₀ where

variable [Facts]
-- ==== Proof.Spec.lean ====
/-
  What one timestep of this network computes, on the extended reals, as plain functions of ONE row's data.

  Every timestep starts from the zero state, so the recurrent weights never enter: from the input row x (3 numbers)
  the four-gate pre-activation is  g = x · W_ihᵀ + b  (4096 numbers, b the sum of the two gate biases), the cell and
  hidden state are  c = σ(g_i) · tanh(g_g),  h = σ(g_o) · tanh(c)  over the first, third and fourth quarter of g
  (1024 numbers each; the forget quarter multiplies the zero cell state and is dropped), and the seven mixture
  parameters are  l = h · W_outᵀ + b_out.  The three outputs of the row are

      eos = 1 if u < σ(l₀) else 0,
      x   = l₁ + exp(l₃) · z₁,
      y   = l₂ + tanh(l₅) · exp(l₄) · z₁ + exp(l₄) · √(max(1 − tanh(l₅)², 0)) · z₂,

  a Bernoulli draw against the uniform number u and a bivariate normal sample through the Cholesky factor of its
  covariance, from the two normal numbers z₁, z₂.  `σ` is the logistic function, 1 / (1 + e⁻ˣ).

  `out` is the whole [65536, 3] result as a function of the argument arrays: row r, column q is the q-th output of
  row r's data.  Both programs are shown to compute `out`.
-/
import Idealize.ShloMosaic.PureOps.Ideal
import Idealize.ShloMosaic.PureOps.Ideal.Laws
import Idealize.ShloMosaic.Lib.ValueIdx
import Idealize.ShloMosaic.Lib.IdealHost

noncomputable section

open Idealize.ShloMosaic Idealize.ShloMosaic.ValueIdx
open scoped BigOperators

namespace Cert.Mdn

/-- The gate pre-activations of one row: `x · Wᵀ + b`, entry `j` the row against row `j` of `W`. -/
def gate (x : Fin 3 → EReal) (W : Fin 4096 → Fin 3 → EReal) (b : Fin 4096 → EReal) (j : Fin 4096) : EReal :=
  (∑ k : Fin 3, x k * W j k) + b j

/-- The hidden state from the pre-activations: input gate in entries [0, 1024), candidate in [2048, 3072),
    output gate in [3072, 4096); the forget gate's quarter is not read. -/
def hidden (g : Fin 4096 → EReal) (k : Fin 1024) : EReal :=
  Ideal.logistic (g ⟨3072 + k.val, by have := k.isLt; omega⟩)
    * Ideal.tanh (Ideal.logistic (g ⟨k.val, by have := k.isLt; omega⟩) * Ideal.tanh (g ⟨2048 + k.val, by have := k.isLt; omega⟩))

/-- The seven mixture parameters of one row: `h · Wᵀ + b`. -/
def head (h : Fin 1024 → EReal) (W : Fin 7 → Fin 1024 → EReal) (b : Fin 7 → EReal) (j : Fin 7) : EReal :=
  (∑ k : Fin 1024, h k * W j k) + b j

/-- The end-of-stroke draw: one when the uniform number is below the logistic of the first parameter, else zero
    (the comparison's bit read as a natural number). -/
def eos (l : Fin 7 → EReal) (u : EReal) : EReal :=
  (((Ideal.cmp .olt u (Ideal.logistic (l 0))).toNat : ℝ) : EReal)

/-- The first coordinate of the normal sample. -/
def xs (l : Fin 7 → EReal) (z1 : EReal) : EReal := l 1 + Ideal.exp (l 3) * z1

/-- The second coordinate: correlated with the first through `tanh l₅`, the remaining variance on `z₂`. The
    constants one and zero are kept as the float words both programs spell. -/
def ys (l : Fin 7 → EReal) (z1 z2 : EReal) : EReal :=
  l 2 + Ideal.tanh (l 5) * Ideal.exp (l 4) * z1
    + Ideal.exp (l 4) * Ideal.sqrt (max (Ideal.ofBits .f32 0x3F800000#32 - Ideal.tanh (l 5) * Ideal.tanh (l 5))
        (Ideal.ofBits .f32 0x00000000#32)) * z2

/-- The three outputs of one row, by column. -/
def outRow (l : Fin 7 → EReal) (u z1 z2 : EReal) (q : Fin 3) : EReal :=
  if q.val = 0 then eos l u else if q.val = 1 then xs l z1 else ys l z1 z2

theorem outRow_zero (l : Fin 7 → EReal) (u z1 z2 : EReal) : outRow l u z1 z2 0 = eos l u := rfl
theorem outRow_one (l : Fin 7 → EReal) (u z1 z2 : EReal) : outRow l u z1 z2 1 = xs l z1 := rfl
theorem outRow_two (l : Fin 7 → EReal) (u z1 z2 : EReal) : outRow l u z1 z2 2 = ys l z1 z2 := rfl

/-- The mixture parameters of row `r` from the argument arrays. -/
def lin (seq : (⟨2, ![65536, 3]⟩ : Shape).Idx → EReal) (Wih : (⟨2, ![4096, 3]⟩ : Shape).Idx → EReal)
    (bih bhh : (⟨1, ![4096]⟩ : Shape).Idx → EReal) (Wout : (⟨2, ![7, 1024]⟩ : Shape).Idx → EReal)
    (bout : (⟨1, ![7]⟩ : Shape).Idx → EReal) (r : Fin 65536) : Fin 7 → EReal :=
  head (hidden (gate (fun k => seq (ix2 r k)) (fun j k => Wih (ix2 j k)) (fun j => bih (ix1 j) + bhh (ix1 j))))
    (fun j k => Wout (ix2 j k)) (fun j => bout (ix1 j))

/-- The result array: entry (r, q) is output `q` of row `r`. -/
def out (seq : (⟨2, ![65536, 3]⟩ : Shape).Idx → EReal) (Wih : (⟨2, ![4096, 3]⟩ : Shape).Idx → EReal)
    (bih bhh : (⟨1, ![4096]⟩ : Shape).Idx → EReal) (Wout : (⟨2, ![7, 1024]⟩ : Shape).Idx → EReal)
    (bout : (⟨1, ![7]⟩ : Shape).Idx → EReal) (z : (⟨2, ![65536, 2]⟩ : Shape).Idx → EReal)
    (u : (⟨2, ![65536, 1]⟩ : Shape).Idx → EReal) : (⟨2, ![65536, 3]⟩ : Shape).Idx → EReal :=
  fun i => outRow (lin seq Wih bih bhh Wout bout (i 0)) (u (ix2 (i 0) 0)) (z (ix2 (i 0) 0)) (z (ix2 (i 0) 1)) (i 1)

/-- The float word of one is the number one. -/
theorem one_f32 : Ideal.ofBits .f32 0x3F800000#32 = 1 := Ideal.ofBits_one_f32

/-- The logistic function spelt with the host's operations — one over one plus the exponential of the negated
    argument, the ones as float words — is the logistic function. -/
theorem logistic_expanded (x : EReal) :
    Ideal.div (Ideal.ofBits .f32 0x3F800000#32) (Ideal.ofBits .f32 0x3F800000#32 + Ideal.exp (-x)) = Ideal.logistic x := by
  rw [one_f32]; rfl

/-- A one-bit word widened to 32 bits and read signed is the bit read as a natural number. -/
theorem bit_signed_eq (b : BitVec 1) : (((b.setWidth 32).toInt : ℝ) : EReal) = (((b.toNat : ℝ)) : EReal) := by
  have h : b = 0#1 ∨ b = 1#1 := by
    by_cases h1 : b = 1#1
    · exact Or.inr h1
    · exact Or.inl (eq_zero_of_ne_one h1)
  rcases h with rfl | rfl <;> simp

end Cert.Mdn

end
-- ==== Proof.RefOut.lean ====
/-
  The reference program's result is `Mdn.out` of its arguments.

  Stage by stage at explicit coordinates: the gate pre-activations, the two logistic quarters and the hidden state,
  the seven mixture parameters, their columns as vectors, the three output columns, and the join of the columns.
-/
import proofs.«105948_j6914897346673_1_alg».proof.Proof.Gen.ReferenceIdeal.Read
import proofs.«105948_j6914897346673_1_alg».proof.Proof.Spec

noncomputable section

open Idealize.ShloMosaic Idealize.ShloMosaic.TcCoe Idealize.ShloMosaic.ValueIdx
open scoped BigOperators

namespace Cert.Mdn.Ref

open Cert.ReferenceIdeal Cert.ReferenceIdeal.Read

/-- The gate pre-activations of row `r` from the argument arrays. -/
abbrev gateOf (x0 : (⟨S65536x3, .f32⟩ : BufTy).Contents (Elt Ideal)) (x1 : (⟨S4096x3, .f32⟩ : BufTy).Contents (Elt Ideal))
    (x3 x4 : (⟨S4096, .f32⟩ : BufTy).Contents (Elt Ideal)) (r : Fin 65536) : Fin 4096 → EReal :=
  Cert.Mdn.gate (fun k => x0 (ix2 r k)) (fun j k => x1 (ix2 j k)) (fun j => x3 (ix1 j) + x4 (ix1 j))

/-- The matrix product against the transposed weights plus the broadcast bias sum: entry (r, j) is gate `j` of row `r`. -/
theorem gates_apply (x0 : (⟨S65536x3, .f32⟩ : BufTy).Contents (Elt Ideal)) (x1 : (⟨S4096x3, .f32⟩ : BufTy).Contents (Elt Ideal))
    (x3 x4 : (⟨S4096, .f32⟩ : BufTy).Contents (Elt Ideal)) (r : Fin 65536) (j : Fin 4096) :
    val_main_v5 (F := Ideal) x0 x1 x3 x4 (ix2 r j) = gateOf x0 x1 x3 x4 r j := by
  rw [val_main_v5_apply, val_main_v1_apply, val_main_v4_apply, val_main_v3_apply, val_main_v2_apply]
  show _ + _ = (∑ k : Fin 3, x0 (ix2 r k) * x1 (ix2 j k)) + (x3 (ix1 j) + x4 (ix1 j))
  have e3 : idx_main_v3 (idx_main_v4 (ix2 r j)) = ix1 j := funext fun a => Fin.ext (by match a with | ⟨0, _⟩ => rfl)
  rw [e3]
  congr 1
  refine Finset.sum_congr rfl fun k _ => ?_
  rw [val_main_v0_apply]
  have el : lidx_main_v1 (ix2 r j) k = ix2 r k := funext fun a => Fin.ext (by match a with | ⟨0, _⟩ => rfl | ⟨1, _⟩ => rfl)
  have er : idx_main_v0 (ridx_main_v1 (ix2 r j) k) = ix2 j k := funext fun a => Fin.ext (by match a with | ⟨0, _⟩ => rfl | ⟨1, _⟩ => rfl)
  rw [el, er]

/-- The input-gate quarter of the pre-activations, negated and exponentiated, one added, one divided by it: the logistic. -/
theorem sig_i_apply (x0 : (⟨S65536x3, .f32⟩ : BufTy).Contents (Elt Ideal)) (x1 : (⟨S4096x3, .f32⟩ : BufTy).Contents (Elt Ideal))
    (x3 x4 : (⟨S4096, .f32⟩ : BufTy).Contents (Elt Ideal)) (r : Fin 65536) (k : Fin 1024) :
    val_main_v15 (F := Ideal) x0 x1 x3 x4 (ix2 r k) = Ideal.logistic (gateOf x0 x1 x3 x4 r ⟨k.val, by omega⟩) := by
  have e6 : idx_main_v6 (ix2 r k) = ix2 r ⟨k.val, by omega⟩ :=
    funext fun a => Fin.ext (by match a with | ⟨0, _⟩ => rfl | ⟨1, _⟩ => rfl)
  rw [val_main_v15_apply, val_main_v14_apply, val_main_cst_0_apply, val_main_v13_apply, val_main_v12_apply,
    val_main_cst_apply, val_main_v11_apply, val_main_v10_apply, val_main_v6_apply, e6, gates_apply,
    ← Cert.Mdn.logistic_expanded]
  rfl

/-- The output-gate quarter likewise. -/
theorem sig_o_apply (x0 : (⟨S65536x3, .f32⟩ : BufTy).Contents (Elt Ideal)) (x1 : (⟨S4096x3, .f32⟩ : BufTy).Contents (Elt Ideal))
    (x3 x4 : (⟨S4096, .f32⟩ : BufTy).Contents (Elt Ideal)) (r : Fin 65536) (k : Fin 1024) :
    val_main_v23 (F := Ideal) x0 x1 x3 x4 (ix2 r k) = Ideal.logistic (gateOf x0 x1 x3 x4 r ⟨3072 + k.val, by omega⟩) := by
  have e9 : idx_main_v9 (ix2 r k) = ix2 r ⟨3072 + k.val, by omega⟩ :=
    funext fun a => Fin.ext (by match a with | ⟨0, _⟩ => rfl | ⟨1, _⟩ => rfl)
  rw [val_main_v23_apply, val_main_v22_apply, val_main_cst_2_apply, val_main_v21_apply, val_main_v20_apply,
    val_main_cst_1_apply, val_main_v19_apply, val_main_v18_apply, val_main_v9_apply, e9, gates_apply,
    ← Cert.Mdn.logistic_expanded]
  rfl

/-- The hidden state: entry (r, k) is `hidden` of row `r`'s gates at `k`. -/
theorem hidden_apply (x0 : (⟨S65536x3, .f32⟩ : BufTy).Contents (Elt Ideal)) (x1 : (⟨S4096x3, .f32⟩ : BufTy).Contents (Elt Ideal))
    (x3 x4 : (⟨S4096, .f32⟩ : BufTy).Contents (Elt Ideal)) (r : Fin 65536) (k : Fin 1024) :
    val_main_v25 (F := Ideal) x0 x1 x3 x4 (ix2 r k) = Cert.Mdn.hidden (gateOf x0 x1 x3 x4 r) k := by
  have e8 : idx_main_v8 (ix2 r k) = ix2 r ⟨2048 + k.val, by omega⟩ :=
    funext fun a => Fin.ext (by match a with | ⟨0, _⟩ => rfl | ⟨1, _⟩ => rfl)
  rw [val_main_v25_apply, sig_o_apply, val_main_v24_apply, val_main_v17_apply, sig_i_apply, val_main_v16_apply,
    val_main_v8_apply, e8, gates_apply]
  rfl

/-- The matrix product of the hidden state against the transposed output weights plus the broadcast bias: entry (r, j) is
    mixture parameter `j` of row `r`. -/
theorem lin_apply (x0 : (⟨S65536x3, .f32⟩ : BufTy).Contents (Elt Ideal)) (x1 : (⟨S4096x3, .f32⟩ : BufTy).Contents (Elt Ideal))
    (x3 x4 : (⟨S4096, .f32⟩ : BufTy).Contents (Elt Ideal)) (x5 : (⟨S7x1024, .f32⟩ : BufTy).Contents (Elt Ideal))
    (x6 : (⟨S7, .f32⟩ : BufTy).Contents (Elt Ideal)) (r : Fin 65536) (j : Fin 7) :
    val_main_v30 (F := Ideal) x0 x1 x3 x4 x5 x6 (ix2 r j) = Cert.Mdn.lin x0 x1 x3 x4 x5 x6 r j := by
  rw [val_main_v30_apply, val_main_v27_apply, val_main_v29_apply, val_main_v28_apply]
  show _ + _ = (∑ k : Fin 1024, Cert.Mdn.hidden (gateOf x0 x1 x3 x4 r) k * x5 (ix2 j k)) + x6 (ix1 j)
  have e28 : idx_main_v28 (idx_main_v29 (ix2 r j)) = ix1 j := funext fun a => Fin.ext (by match a with | ⟨0, _⟩ => rfl)
  rw [e28]
  congr 1
  refine Finset.sum_congr rfl fun k _ => ?_
  have el : lidx_main_v27 (ix2 r j) k = ix2 r k := funext fun a => Fin.ext (by match a with | ⟨0, _⟩ => rfl | ⟨1, _⟩ => rfl)
  have er : idx_main_v26 (ridx_main_v27 (ix2 r j) k) = ix2 j k := funext fun a => Fin.ext (by match a with | ⟨0, _⟩ => rfl | ⟨1, _⟩ => rfl)
  rw [val_main_v26_apply, el, er, hidden_apply]

/-- Column 0 of the mixture parameters, sliced out and reshaped to a vector: entry `r` is parameter 0 of row `r`. -/
theorem col0_apply (x0 : (⟨S65536x3, .f32⟩ : BufTy).Contents (Elt Ideal)) (x1 : (⟨S4096x3, .f32⟩ : BufTy).Contents (Elt Ideal))
    (x3 x4 : (⟨S4096, .f32⟩ : BufTy).Contents (Elt Ideal)) (x5 : (⟨S7x1024, .f32⟩ : BufTy).Contents (Elt Ideal))
    (x6 : (⟨S7, .f32⟩ : BufTy).Contents (Elt Ideal)) (r : Fin 65536) :
    val_main_v32 (F := Ideal) x0 x1 x3 x4 x5 x6 (ix1 r) = Cert.Mdn.lin x0 x1 x3 x4 x5 x6 r 0 := by
  have e : idx_main_v31 (idx_main_v32 (ix1 r)) = ix2 r 0 :=
    funext fun a => Fin.ext (by match a with | ⟨0, _⟩ => exact Nat.div_one _ | ⟨1, _⟩ => rfl)
  rw [val_main_v32_apply, val_main_v31_apply, e, lin_apply]

/-- Column 1 of the mixture parameters, sliced out and reshaped to a vector: entry `r` is parameter 1 of row `r`. -/
theorem col1_apply (x0 : (⟨S65536x3, .f32⟩ : BufTy).Contents (Elt Ideal)) (x1 : (⟨S4096x3, .f32⟩ : BufTy).Contents (Elt Ideal))
    (x3 x4 : (⟨S4096, .f32⟩ : BufTy).Contents (Elt Ideal)) (x5 : (⟨S7x1024, .f32⟩ : BufTy).Contents (Elt Ideal))
    (x6 : (⟨S7, .f32⟩ : BufTy).Contents (Elt Ideal)) (r : Fin 65536) :
    val_main_v34 (F := Ideal) x0 x1 x3 x4 x5 x6 (ix1 r) = Cert.Mdn.lin x0 x1 x3 x4 x5 x6 r 1 := by
  have e : idx_main_v33 (idx_main_v34 (ix1 r)) = ix2 r 1 :=
    funext fun a => Fin.ext (by match a with | ⟨0, _⟩ => exact Nat.div_one _ | ⟨1, _⟩ => rfl)
  rw [val_main_v34_apply, val_main_v33_apply, e, lin_apply]

/-- Column 2 of the mixture parameters, sliced out and reshaped to a vector: entry `r` is parameter 2 of row `r`. -/
theorem col2_apply (x0 : (⟨S65536x3, .f32⟩ : BufTy).Contents (Elt Ideal)) (x1 : (⟨S4096x3, .f32⟩ : BufTy).Contents (Elt Ideal))
    (x3 x4 : (⟨S4096, .f32⟩ : BufTy).Contents (Elt Ideal)) (x5 : (⟨S7x1024, .f32⟩ : BufTy).Contents (Elt Ideal))
    (x6 : (⟨S7, .f32⟩ : BufTy).Contents (Elt Ideal)) (r : Fin 65536) :
    val_main_v36 (F := Ideal) x0 x1 x3 x4 x5 x6 (ix1 r) = Cert.Mdn.lin x0 x1 x3 x4 x5 x6 r 2 := by
  have e : idx_main_v35 (idx_main_v36 (ix1 r)) = ix2 r 2 :=
    funext fun a => Fin.ext (by match a with | ⟨0, _⟩ => exact Nat.div_one _ | ⟨1, _⟩ => rfl)
  rw [val_main_v36_apply, val_main_v35_apply, e, lin_apply]

/-- Column 3 of the mixture parameters, sliced out and reshaped to a vector: entry `r` is parameter 3 of row `r`. -/
theorem col3_apply (x0 : (⟨S65536x3, .f32⟩ : BufTy).Contents (Elt Ideal)) (x1 : (⟨S4096x3, .f32⟩ : BufTy).Contents (Elt Ideal))
    (x3 x4 : (⟨S4096, .f32⟩ : BufTy).Contents (Elt Ideal)) (x5 : (⟨S7x1024, .f32⟩ : BufTy).Contents (Elt Ideal))
    (x6 : (⟨S7, .f32⟩ : BufTy).Contents (Elt Ideal)) (r : Fin 65536) :
    val_main_v38 (F := Ideal) x0 x1 x3 x4 x5 x6 (ix1 r) = Cert.Mdn.lin x0 x1 x3 x4 x5 x6 r 3 := by
  have e : idx_main_v37 (idx_main_v38 (ix1 r)) = ix2 r 3 :=
    funext fun a => Fin.ext (by match a with | ⟨0, _⟩ => exact Nat.div_one _ | ⟨1, _⟩ => rfl)
  rw [val_main_v38_apply, val_main_v37_apply, e, lin_apply]

/-- Column 4 of the mixture parameters, sliced out and reshaped to a vector: entry `r` is parameter 4 of row `r`. -/
theorem col4_apply (x0 : (⟨S65536x3, .f32⟩ : BufTy).Contents (Elt Ideal)) (x1 : (⟨S4096x3, .f32⟩ : BufTy).Contents (Elt Ideal))
    (x3 x4 : (⟨S4096, .f32⟩ : BufTy).Contents (Elt Ideal)) (x5 : (⟨S7x1024, .f32⟩ : BufTy).Contents (Elt Ideal))
    (x6 : (⟨S7, .f32⟩ : BufTy).Contents (Elt Ideal)) (r : Fin 65536) :
    val_main_v40 (F := Ideal) x0 x1 x3 x4 x5 x6 (ix1 r) = Cert.Mdn.lin x0 x1 x3 x4 x5 x6 r 4 := by
  have e : idx_main_v39 (idx_main_v40 (ix1 r)) = ix2 r 4 :=
    funext fun a => Fin.ext (by match a with | ⟨0, _⟩ => exact Nat.div_one _ | ⟨1, _⟩ => rfl)
  rw [val_main_v40_apply, val_main_v39_apply, e, lin_apply]

/-- Column 5 of the mixture parameters, sliced out and reshaped to a vector: entry `r` is parameter 5 of row `r`. -/
theorem col5_apply (x0 : (⟨S65536x3, .f32⟩ : BufTy).Contents (Elt Ideal)) (x1 : (⟨S4096x3, .f32⟩ : BufTy).Contents (Elt Ideal))
    (x3 x4 : (⟨S4096, .f32⟩ : BufTy).Contents (Elt Ideal)) (x5 : (⟨S7x1024, .f32⟩ : BufTy).Contents (Elt Ideal))
    (x6 : (⟨S7, .f32⟩ : BufTy).Contents (Elt Ideal)) (r : Fin 65536) :
    val_main_v42 (F := Ideal) x0 x1 x3 x4 x5 x6 (ix1 r) = Cert.Mdn.lin x0 x1 x3 x4 x5 x6 r 5 := by
  have e : idx_main_v41 (idx_main_v42 (ix1 r)) = ix2 r 5 :=
    funext fun a => Fin.ext (by match a with | ⟨0, _⟩ => exact Nat.div_one _ | ⟨1, _⟩ => rfl)
  rw [val_main_v42_apply, val_main_v41_apply, e, lin_apply]

/-- The first normal number of row `r`. -/
theorem z1_apply (x7 : (⟨S65536x2, .f32⟩ : BufTy).Contents (Elt Ideal)) (r : Fin 65536) :
    val_main_v55 (F := Ideal) x7 (ix1 r) = x7 (ix2 r 0) := by
  have e : idx_main_v54 (idx_main_v55 (ix1 r)) = ix2 r 0 :=
    funext fun a => Fin.ext (by match a with | ⟨0, _⟩ => exact Nat.div_one _ | ⟨1, _⟩ => rfl)
  rw [val_main_v55_apply, val_main_v54_apply, e]

/-- The second normal number of row `r`. -/
theorem z2_apply (x7 : (⟨S65536x2, .f32⟩ : BufTy).Contents (Elt Ideal)) (r : Fin 65536) :
    val_main_v57 (F := Ideal) x7 (ix1 r) = x7 (ix2 r 1) := by
  have e : idx_main_v56 (idx_main_v57 (ix1 r)) = ix2 r 1 :=
    funext fun a => Fin.ext (by match a with | ⟨0, _⟩ => exact Nat.div_one _ | ⟨1, _⟩ => rfl)
  rw [val_main_v57_apply, val_main_v56_apply, e]

/-- The uniform number of row `r`. -/
theorem u_apply (x8 : (⟨S65536x1, .f32⟩ : BufTy).Contents (Elt Ideal)) (r : Fin 65536) :
    val_main_v72 (F := Ideal) x8 (ix1 r) = x8 (ix2 r 0) := by
  have e : idx_main_v72 (ix1 r) = ix2 r 0 :=
    funext fun a => Fin.ext (by match a with | ⟨0, _⟩ => exact Nat.div_one _ | ⟨1, _⟩ => rfl)
  rw [val_main_v72_apply, e]

/-- The first sample coordinate of row `r`. -/
theorem xs_apply (x0 : (⟨S65536x3, .f32⟩ : BufTy).Contents (Elt Ideal)) (x1 : (⟨S4096x3, .f32⟩ : BufTy).Contents (Elt Ideal))
    (x3 x4 : (⟨S4096, .f32⟩ : BufTy).Contents (Elt Ideal)) (x5 : (⟨S7x1024, .f32⟩ : BufTy).Contents (Elt Ideal))
    (x6 : (⟨S7, .f32⟩ : BufTy).Contents (Elt Ideal)) (x7 : (⟨S65536x2, .f32⟩ : BufTy).Contents (Elt Ideal)) (r : Fin 65536) :
    val_main_v59 (F := Ideal) x0 x1 x3 x4 x5 x6 x7 (ix1 r)
      = Cert.Mdn.xs (Cert.Mdn.lin x0 x1 x3 x4 x5 x6 r) (x7 (ix2 r 0)) := by
  rw [val_main_v59_apply, val_main_v58_apply, val_main_v52_apply, col1_apply, col3_apply, z1_apply]
  rfl

/-- The second sample coordinate of row `r`. -/
theorem ys_apply (x0 : (⟨S65536x3, .f32⟩ : BufTy).Contents (Elt Ideal)) (x1 : (⟨S4096x3, .f32⟩ : BufTy).Contents (Elt Ideal))
    (x3 x4 : (⟨S4096, .f32⟩ : BufTy).Contents (Elt Ideal)) (x5 : (⟨S7x1024, .f32⟩ : BufTy).Contents (Elt Ideal))
    (x6 : (⟨S7, .f32⟩ : BufTy).Contents (Elt Ideal)) (x7 : (⟨S65536x2, .f32⟩ : BufTy).Contents (Elt Ideal)) (r : Fin 65536) :
    val_main_v71 (F := Ideal) x0 x1 x3 x4 x5 x6 x7 (ix1 r)
      = Cert.Mdn.ys (Cert.Mdn.lin x0 x1 x3 x4 x5 x6 r) (x7 (ix2 r 0)) (x7 (ix2 r 1)) := by
  rw [val_main_v71_apply, val_main_v62_apply, val_main_v61_apply, val_main_v60_apply, val_main_v70_apply,
    val_main_v69_apply, val_main_v68_apply, val_main_v67_apply, val_main_v65_apply, val_main_v64_apply,
    val_main_cst_5_apply, val_main_v63_apply, val_main_v66_apply, val_main_cst_6_apply, val_main_v53_apply,
    val_main_v51_apply, col2_apply, col4_apply, col5_apply, z1_apply, z2_apply]
  rfl

/-- The end-of-stroke draw of row `r`. -/
theorem eos_apply (x0 : (⟨S65536x3, .f32⟩ : BufTy).Contents (Elt Ideal)) (x1 : (⟨S4096x3, .f32⟩ : BufTy).Contents (Elt Ideal))
    (x3 x4 : (⟨S4096, .f32⟩ : BufTy).Contents (Elt Ideal)) (x5 : (⟨S7x1024, .f32⟩ : BufTy).Contents (Elt Ideal))
    (x6 : (⟨S7, .f32⟩ : BufTy).Contents (Elt Ideal)) (x8 : (⟨S65536x1, .f32⟩ : BufTy).Contents (Elt Ideal)) (r : Fin 65536) :
    val_main_v74 (F := Ideal) x0 x1 x3 x4 x5 x6 x8 (ix1 r)
      = Cert.Mdn.eos (Cert.Mdn.lin x0 x1 x3 x4 x5 x6 r) (x8 (ix2 r 0)) := by
  rw [val_main_v74_apply, val_main_v73_apply, val_main_v50_apply, val_main_v49_apply, val_main_cst_4_apply,
    val_main_v48_apply, val_main_v47_apply, val_main_cst_3_apply, val_main_v46_apply, val_main_v45_apply,
    col0_apply, u_apply]
  unfold Cert.Mdn.eos
  rw [← Cert.Mdn.logistic_expanded]
  rfl

/-- The three columns joined: entry (r, 0) is the first column at row `r`. -/
theorem out_col0 (x0 : (⟨S65536x3, .f32⟩ : BufTy).Contents (Elt Ideal)) (x1 : (⟨S4096x3, .f32⟩ : BufTy).Contents (Elt Ideal))
    (x3 x4 : (⟨S4096, .f32⟩ : BufTy).Contents (Elt Ideal)) (x5 : (⟨S7x1024, .f32⟩ : BufTy).Contents (Elt Ideal))
    (x6 : (⟨S7, .f32⟩ : BufTy).Contents (Elt Ideal)) (x7 : (⟨S65536x2, .f32⟩ : BufTy).Contents (Elt Ideal))
    (x8 : (⟨S65536x1, .f32⟩ : BufTy).Contents (Elt Ideal)) (r : Fin 65536) :
    val_main_v78 (F := Ideal) x0 x1 x3 x4 x5 x6 x7 x8 (ix2 r 0)
      = val_main_v75 (F := Ideal) x0 x1 x3 x4 x5 x6 x8 (ix2 r 0) := by
  unfold val_main_v78
  refine concatenate_apply_piece (1 : Fin S65536x3.rank) _ _
    (ix2 r 0) 0 (by show (0 : Nat) < 3; omega) S65536x1 _ rfl rfl 0 rfl (ix2 r 0)
    (fun b hb => by match b with | ⟨0, _⟩ => rfl | ⟨1, _⟩ => exact absurd rfl hb) rfl

/-- Entry (r, 1) is the second column at row `r`. -/
theorem out_col1 (x0 : (⟨S65536x3, .f32⟩ : BufTy).Contents (Elt Ideal)) (x1 : (⟨S4096x3, .f32⟩ : BufTy).Contents (Elt Ideal))
    (x3 x4 : (⟨S4096, .f32⟩ : BufTy).Contents (Elt Ideal)) (x5 : (⟨S7x1024, .f32⟩ : BufTy).Contents (Elt Ideal))
    (x6 : (⟨S7, .f32⟩ : BufTy).Contents (Elt Ideal)) (x7 : (⟨S65536x2, .f32⟩ : BufTy).Contents (Elt Ideal))
    (x8 : (⟨S65536x1, .f32⟩ : BufTy).Contents (Elt Ideal)) (r : Fin 65536) :
    val_main_v78 (F := Ideal) x0 x1 x3 x4 x5 x6 x7 x8 (ix2 r 1)
      = val_main_v76 (F := Ideal) x0 x1 x3 x4 x5 x6 x7 (ix2 r 0) := by
  unfold val_main_v78
  refine concatenate_apply_piece (1 : Fin S65536x3.rank) _ _
    (ix2 r 1) 1 (by show (1 : Nat) < 3; omega) S65536x1 _ rfl rfl 1 rfl (ix2 r 0)
    (fun b hb => by match b with | ⟨0, _⟩ => rfl | ⟨1, _⟩ => exact absurd rfl hb) rfl

/-- Entry (r, 2) is the third column at row `r`. -/
theorem out_col2 (x0 : (⟨S65536x3, .f32⟩ : BufTy).Contents (Elt Ideal)) (x1 : (⟨S4096x3, .f32⟩ : BufTy).Contents (Elt Ideal))
    (x3 x4 : (⟨S4096, .f32⟩ : BufTy).Contents (Elt Ideal)) (x5 : (⟨S7x1024, .f32⟩ : BufTy).Contents (Elt Ideal))
    (x6 : (⟨S7, .f32⟩ : BufTy).Contents (Elt Ideal)) (x7 : (⟨S65536x2, .f32⟩ : BufTy).Contents (Elt Ideal))
    (x8 : (⟨S65536x1, .f32⟩ : BufTy).Contents (Elt Ideal)) (r : Fin 65536) :
    val_main_v78 (F := Ideal) x0 x1 x3 x4 x5 x6 x7 x8 (ix2 r 2)
      = val_main_v77 (F := Ideal) x0 x1 x3 x4 x5 x6 x7 (ix2 r 0) := by
  unfold val_main_v78
  refine concatenate_apply_piece (1 : Fin S65536x3.rank) _ _
    (ix2 r 2) 2 (by show (2 : Nat) < 3; omega) S65536x1 _ rfl rfl 2 rfl (ix2 r 0)
    (fun b hb => by match b with | ⟨0, _⟩ => rfl | ⟨1, _⟩ => exact absurd rfl hb) rfl

/-- The reference's last stage, the three columns joined, is `Mdn.out` of the argument arrays. -/
theorem ref_out (x0 : (⟨S65536x3, .f32⟩ : BufTy).Contents (Elt Ideal)) (x1 : (⟨S4096x3, .f32⟩ : BufTy).Contents (Elt Ideal))
    (x3 x4 : (⟨S4096, .f32⟩ : BufTy).Contents (Elt Ideal)) (x5 : (⟨S7x1024, .f32⟩ : BufTy).Contents (Elt Ideal))
    (x6 : (⟨S7, .f32⟩ : BufTy).Contents (Elt Ideal)) (x7 : (⟨S65536x2, .f32⟩ : BufTy).Contents (Elt Ideal))
    (x8 : (⟨S65536x1, .f32⟩ : BufTy).Contents (Elt Ideal)) :
    val_main_v78 (F := Ideal) x0 x1 x3 x4 x5 x6 x7 x8 = Cert.Mdn.out x0 x1 x3 x4 x5 x6 x7 x8 := by
  funext i
  obtain ⟨r, q, rfl⟩ : ∃ (r : Fin 65536) (q : Fin 3), i = ix2 r q := ⟨i 0, i 1, eq_ix2 i⟩
  have e1 : ∀ r : Fin 65536, idx_main_v75 (ix2 r (0 : Fin 1)) = ix1 r := fun r =>
    funext fun a => Fin.ext (by match a with | ⟨0, _⟩ => rfl)
  match q with
  | ⟨0, _⟩ =>
    show val_main_v78 (F := Ideal) x0 x1 x3 x4 x5 x6 x7 x8 (ix2 r 0) = _
    rw [out_col0, val_main_v75_apply, e1, eos_apply]
    rfl
  | ⟨1, _⟩ =>
    show val_main_v78 (F := Ideal) x0 x1 x3 x4 x5 x6 x7 x8 (ix2 r 1) = _
    rw [out_col1, val_main_v76_apply, show idx_main_v76 (ix2 r (0 : Fin 1)) = ix1 r from e1 r, xs_apply]
    rfl
  | ⟨2, _⟩ =>
    show val_main_v78 (F := Ideal) x0 x1 x3 x4 x5 x6 x7 x8 (ix2 r 2) = _
    rw [out_col2, val_main_v77_apply, show idx_main_v77 (ix2 r (0 : Fin 1)) = ix1 r from e1 r, ys_apply]
    rfl

end Cert.Mdn.Ref

end
-- ==== Proof.BlockOut.lean ====
/-
  What the kernel body leaves in its output block, entry by entry, as the row functions of `Mdn` of the input blocks.
-/
import proofs.«105948_j6914897346673_1_alg».proof.Proof.Gen.KernelIdeal.Frame
import proofs.«105948_j6914897346673_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx
open scoped BigOperators

namespace Cert.Mdn.Block

open Cert.KernelIdeal Cert.KernelIdeal.Gen

/-! ## The first contraction: a row of the sequence block against a column of the transposed gate weights -/

theorem lhs_gate_0 (i : S256x4096.Idx) (q : dot_S256x3_S3x4096_S256x4096_1_0_0_1_n_n.contr.Idx) :
    (dot_S256x3_S3x4096_S256x4096_1_0_0_1_n_n.lhsIdx i q 0).val = (i 0).val := by
  unfold DotDims.lhsIdx
  rw [dif_neg (show ¬(0 : Fin S256x3.rank) ∈ dot_S256x3_S3x4096_S256x4096_1_0_0_1_n_n.lhsBatch by decide), dif_pos (show (0 : Fin S256x3.rank) ∈ dot_S256x3_S3x4096_S256x4096_1_0_0_1_n_n.lhsNonContracting by decide)]
  rfl
theorem lhs_gate_1 (i : S256x4096.Idx) (q : dot_S256x3_S3x4096_S256x4096_1_0_0_1_n_n.contr.Idx) :
    (dot_S256x3_S3x4096_S256x4096_1_0_0_1_n_n.lhsIdx i q 1).val = (q ⟨0, by decide⟩).val :=
  dot_S256x3_S3x4096_S256x4096_1_0_0_1_n_n.lhsIdx_val_of_single rfl i q
theorem rhs_gate_0 (i : S256x4096.Idx) (q : dot_S256x3_S3x4096_S256x4096_1_0_0_1_n_n.contr.Idx) :
    (dot_S256x3_S3x4096_S256x4096_1_0_0_1_n_n.rhsIdx i q 0).val = (q ⟨0, by decide⟩).val :=
  dot_S256x3_S3x4096_S256x4096_1_0_0_1_n_n.rhsIdx_val_of_single rfl i q
theorem rhs_gate_1 (i : S256x4096.Idx) (q : dot_S256x3_S3x4096_S256x4096_1_0_0_1_n_n.contr.Idx) :
    (dot_S256x3_S3x4096_S256x4096_1_0_0_1_n_n.rhsIdx i q 1).val = (i 1).val := by
  unfold DotDims.rhsIdx
  rw [dif_neg (show ¬(1 : Fin S3x4096.rank) ∈ dot_S256x3_S3x4096_S256x4096_1_0_0_1_n_n.rhsBatch by decide), dif_pos (show (1 : Fin S3x4096.rank) ∈ dot_S256x3_S3x4096_S256x4096_1_0_0_1_n_n.rhsNonContracting by decide)]
  rfl

/-- The first matrix product into the zero accumulator, at row `p` and column `j`: the sum over the three inputs. -/
theorem matmul_gate_apply (a : FVec Ideal S256x3 .bf16) (w : FVec Ideal S3x4096 .bf16) (p : Fin 256) (j : Fin 4096) :
    matmul dot_S256x3_S3x4096_S256x4096_1_0_0_1_n_n none a w (constant (F := Ideal) S256x4096 .f32 0x00000000#32) (ix2 p j)
      = ∑ k : Fin 3, a (ix2 p k) * w (ix2 k j) := by
  simp only [matmul]
  rw [Ideal.matmul_constant_zero_apply, ← Equiv.sum_comp (contrEquiv1 dot_S256x3_S3x4096_S256x4096_1_0_0_1_n_n 3 rfl rfl).symm]
  refine Finset.sum_congr rfl fun k _ => ?_
  have hk := contrEquiv1_symm_val dot_S256x3_S3x4096_S256x4096_1_0_0_1_n_n 3 rfl rfl k
  have el : dot_S256x3_S3x4096_S256x4096_1_0_0_1_n_n.lhsIdx (ix2 p j) ((contrEquiv1 dot_S256x3_S3x4096_S256x4096_1_0_0_1_n_n 3 rfl rfl).symm k) = ix2 p k := funext fun ax => Fin.ext (by
    match ax with
    | ⟨0, _⟩ => exact lhs_gate_0 _ _
    | ⟨1, _⟩ => exact (lhs_gate_1 _ _).trans hk)
  have er : dot_S256x3_S3x4096_S256x4096_1_0_0_1_n_n.rhsIdx (ix2 p j) ((contrEquiv1 dot_S256x3_S3x4096_S256x4096_1_0_0_1_n_n 3 rfl rfl).symm k) = ix2 k j := funext fun ax => Fin.ext (by
    match ax with
    | ⟨0, _⟩ => exact (rhs_gate_0 _ _).trans hk
    | ⟨1, _⟩ => exact rhs_gate_1 _ _)
  rw [el, er]

/-- The gate pre-activations of row `p`: the first matrix product plus the bias row broadcast over the rows. -/
theorem gates_apply (v0 : Vec Ideal S256x3 .f32) (v2 : Vec Ideal S3x4096 .bf16) (v5 : Vec Ideal S1x4096 .f32)
    (p : Fin 256) (j : Fin 4096) :
    (addf (matmul (φ₁ := .bf16) (φ₂ := .bf16) dot_S256x3_S3x4096_S256x4096_1_0_0_1_n_n none (truncf .bf16 v0 bitsLt_bf16_f32)
        (shapeCast S3x4096 v2 shapeCasts_S3x4096_S3x4096) (constant (F := Ideal) S256x4096 .f32 0x00000000#32))
      (broadcastTo S256x4096 (shapeCast S1x4096 v5 shapeCasts_S1x4096_S1x4096) broadcasts_S1x4096_S256x4096)) (ix2 p j)
      = Cert.Mdn.gate (fun k => v0 (ix2 p k)) (fun j k => v2 (ix2 k j)) (fun j => v5 (ix2 0 j)) j := by
  rw [shapeCast_self, shapeCast_self]
  refine (addf_apply _ _ _).trans ?_
  rw [matmul_gate_apply, broadcastTo_1b_ab_apply]
  rfl

/-- The hidden state of row `p` from its row of pre-activations: the three quarters read by unit-stride column slices. -/
theorem hidden_apply (g : FVec Ideal S256x4096 .f32) (p : Fin 256) (k : Fin 1024) :
    (mulf (logistic (extractStridedSlice S256x1024 ![0, 3072] g slices_S256x4096_o0_3072_S256x1024))
      (tanh (mulf (logistic (extractStridedSlice S256x1024 ![0, 0] g slices_S256x4096_o0_0_S256x1024))
        (tanh (extractStridedSlice S256x1024 ![0, 2048] g slices_S256x4096_o0_2048_S256x1024))))) (ix2 p k)
      = Cert.Mdn.hidden (fun j => g (ix2 p j)) k := by
  have e0 := slice2_axis1_apply 0 g slices_S256x4096_o0_0_S256x1024 p k ⟨k.val, by have := k.isLt; omega⟩ (Nat.zero_add _).symm
  have e1 := slice2_axis1_eq 2048 g slices_S256x4096_o0_2048_S256x1024 p k
  have e2 := slice2_axis1_eq 3072 g slices_S256x4096_o0_3072_S256x1024 p k
  show Ideal.logistic (extractStridedSlice S256x1024 ![0, 3072] g slices_S256x4096_o0_3072_S256x1024 (ix2 p k))
      * Ideal.tanh (Ideal.logistic (extractStridedSlice S256x1024 ![0, 0] g slices_S256x4096_o0_0_S256x1024 (ix2 p k))
        * Ideal.tanh (extractStridedSlice S256x1024 ![0, 2048] g slices_S256x4096_o0_2048_S256x1024 (ix2 p k))) = _
  rw [e0, e1, e2]
  rfl

/-! ## The second contraction: a row of hidden states against a column of the transposed output weights -/

theorem lhs_head_0 (i : S256x7.Idx) (q : dot_S256x1024_S1024x7_S256x7_1_0_0_1_n_n.contr.Idx) :
    (dot_S256x1024_S1024x7_S256x7_1_0_0_1_n_n.lhsIdx i q 0).val = (i 0).val := by
  unfold DotDims.lhsIdx
  rw [dif_neg (show ¬(0 : Fin S256x1024.rank) ∈ dot_S256x1024_S1024x7_S256x7_1_0_0_1_n_n.lhsBatch by decide), dif_pos (show (0 : Fin S256x1024.rank) ∈ dot_S256x1024_S1024x7_S256x7_1_0_0_1_n_n.lhsNonContracting by decide)]
  rfl
theorem lhs_head_1 (i : S256x7.Idx) (q : dot_S256x1024_S1024x7_S256x7_1_0_0_1_n_n.contr.Idx) :
    (dot_S256x1024_S1024x7_S256x7_1_0_0_1_n_n.lhsIdx i q 1).val = (q ⟨0, by decide⟩).val :=
  dot_S256x1024_S1024x7_S256x7_1_0_0_1_n_n.lhsIdx_val_of_single rfl i q
theorem rhs_head_0 (i : S256x7.Idx) (q : dot_S256x1024_S1024x7_S256x7_1_0_0_1_n_n.contr.Idx) :
    (dot_S256x1024_S1024x7_S256x7_1_0_0_1_n_n.rhsIdx i q 0).val = (q ⟨0, by decide⟩).val :=
  dot_S256x1024_S1024x7_S256x7_1_0_0_1_n_n.rhsIdx_val_of_single rfl i q
theorem rhs_head_1 (i : S256x7.Idx) (q : dot_S256x1024_S1024x7_S256x7_1_0_0_1_n_n.contr.Idx) :
    (dot_S256x1024_S1024x7_S256x7_1_0_0_1_n_n.rhsIdx i q 1).val = (i 1).val := by
  unfold DotDims.rhsIdx
  rw [dif_neg (show ¬(1 : Fin S1024x7.rank) ∈ dot_S256x1024_S1024x7_S256x7_1_0_0_1_n_n.rhsBatch by decide), dif_pos (show (1 : Fin S1024x7.rank) ∈ dot_S256x1024_S1024x7_S256x7_1_0_0_1_n_n.rhsNonContracting by decide)]
  rfl

/-- The second matrix product into the zero accumulator, at row `p` and column `c`: the sum over the 1024 hidden units. -/
theorem matmul_head_apply (a : FVec Ideal S256x1024 .bf16) (w : FVec Ideal S1024x7 .bf16) (p : Fin 256) (c : Fin 7) :
    matmul dot_S256x1024_S1024x7_S256x7_1_0_0_1_n_n none a w (constant (F := Ideal) S256x7 .f32 0x00000000#32) (ix2 p c)
      = ∑ k : Fin 1024, a (ix2 p k) * w (ix2 k c) := by
  simp only [matmul]
  rw [Ideal.matmul_constant_zero_apply, ← Equiv.sum_comp (contrEquiv1 dot_S256x1024_S1024x7_S256x7_1_0_0_1_n_n 1024 rfl rfl).symm]
  refine Finset.sum_congr rfl fun k _ => ?_
  have hk := contrEquiv1_symm_val dot_S256x1024_S1024x7_S256x7_1_0_0_1_n_n 1024 rfl rfl k
  have el : dot_S256x1024_S1024x7_S256x7_1_0_0_1_n_n.lhsIdx (ix2 p c) ((contrEquiv1 dot_S256x1024_S1024x7_S256x7_1_0_0_1_n_n 1024 rfl rfl).symm k) = ix2 p k := funext fun ax => Fin.ext (by
    match ax with
    | ⟨0, _⟩ => exact lhs_head_0 _ _
    | ⟨1, _⟩ => exact (lhs_head_1 _ _).trans hk)
  have er : dot_S256x1024_S1024x7_S256x7_1_0_0_1_n_n.rhsIdx (ix2 p c) ((contrEquiv1 dot_S256x1024_S1024x7_S256x7_1_0_0_1_n_n 1024 rfl rfl).symm k) = ix2 k c := funext fun ax => Fin.ext (by
    match ax with
    | ⟨0, _⟩ => exact (rhs_head_0 _ _).trans hk
    | ⟨1, _⟩ => exact rhs_head_1 _ _)
  rw [el, er]

/-- The mixture parameters of row `p` from its row of hidden states: the second matrix product plus the bias row. -/
theorem head_apply (h : FVec Ideal S256x1024 .f32) (v19 : Vec Ideal S1024x7 .bf16) (v22 : Vec Ideal S1x7 .f32)
    (p : Fin 256) (c : Fin 7) :
    (addf (matmul (φ₁ := .bf16) (φ₂ := .bf16) dot_S256x1024_S1024x7_S256x7_1_0_0_1_n_n none (truncf .bf16 h bitsLt_bf16_f32)
        (shapeCast S1024x7 v19 shapeCasts_S1024x7_S1024x7) (constant (F := Ideal) S256x7 .f32 0x00000000#32))
      (broadcastTo S256x7 (shapeCast S1x7 v22 shapeCasts_S1x7_S1x7) broadcasts_S1x7_S256x7)) (ix2 p c)
      = Cert.Mdn.head (fun k => h (ix2 p k)) (fun j k => v19 (ix2 k j)) (fun j => v22 (ix2 0 j)) c := by
  rw [shapeCast_self, shapeCast_self]
  refine (addf_apply _ _ _).trans ?_
  rw [matmul_head_apply, broadcastTo_1b_ab_apply]
  rfl

/-- The mixture parameters the body computes, at row `p` and column `c`. -/
theorem pay3_apply (v0 : Vec Ideal S256x3 .f32) (v2 : Vec Ideal S3x4096 .bf16) (v5 : Vec Ideal S1x4096 .f32)
    (v19 : Vec Ideal S1024x7 .bf16) (v22 : Vec Ideal S1x7 .f32) (p : Fin 256) (c : Fin 7) :
    k0_pay3 (F := Ideal) v0 v2 v5 v19 v22 (ix2 p c)
      = Cert.Mdn.head (Cert.Mdn.hidden (Cert.Mdn.gate (fun k => v0 (ix2 p k)) (fun j k => v2 (ix2 k j)) (fun j => v5 (ix2 0 j))))
          (fun j k => v19 (ix2 k j)) (fun j => v22 (ix2 0 j)) c := by
  unfold k0_pay3
  refine (head_apply _ v19 v22 p c).trans ?_
  refine congrArg (fun h => Cert.Mdn.head h (fun j k => v19 (ix2 k j)) (fun j => v22 (ix2 0 j)) c) (funext fun k => ?_)
  refine (hidden_apply _ p k).trans ?_
  exact congrArg (fun g => Cert.Mdn.hidden g k) (funext fun j => gates_apply v0 v2 v5 p j)

/-! ## The stored columns -/

/-- A one-column slice of the parameter matrix at row `p`: the matrix at that row and the slice's column. -/
theorem col_apply (l : FVec Ideal S256x7 .f32) (o : Nat) (h : S256x7.Slices ![0, o] S256x1) (p : Fin 256) (c : Fin 7)
    (hc : c.val = o) : extractStridedSlice S256x1 ![0, o] l h (ix2 p 0) = l (ix2 p c) :=
  slice2_axis1_apply o l h p 0 c (by rw [hc]; rfl)

theorem pay4_apply (v0 : Vec Ideal S256x3 .f32) (v2 : Vec Ideal S3x4096 .bf16) (v5 : Vec Ideal S1x4096 .f32)
    (v19 : Vec Ideal S1024x7 .bf16) (v22 : Vec Ideal S1x7 .f32) (p : Fin 256) :
    k0_pay4 (F := Ideal) v0 v2 v5 v19 v22 (ix2 p 0) = Ideal.logistic (k0_pay3 (F := Ideal) v0 v2 v5 v19 v22 (ix2 p 0)) := by
  unfold k0_pay4
  exact congrArg Ideal.logistic (col_apply _ 0 slices_S256x7_o0_0_S256x1 p 0 rfl)

theorem pay5_apply (v0 : Vec Ideal S256x3 .f32) (v2 : Vec Ideal S3x4096 .bf16) (v5 : Vec Ideal S1x4096 .f32)
    (v19 : Vec Ideal S1024x7 .bf16) (v22 : Vec Ideal S1x7 .f32) (p : Fin 256) :
    k0_pay5 (F := Ideal) v0 v2 v5 v19 v22 (ix2 p 0) = Ideal.tanh (k0_pay3 (F := Ideal) v0 v2 v5 v19 v22 (ix2 p 5)) := by
  unfold k0_pay5
  exact congrArg Ideal.tanh (col_apply _ 5 slices_S256x7_o0_5_S256x1 p 5 rfl)

theorem pay6_apply (v0 : Vec Ideal S256x3 .f32) (v2 : Vec Ideal S3x4096 .bf16) (v5 : Vec Ideal S1x4096 .f32)
    (v19 : Vec Ideal S1024x7 .bf16) (v22 : Vec Ideal S1x7 .f32) (p : Fin 256) :
    k0_pay6 (F := Ideal) v0 v2 v5 v19 v22 (ix2 p 0) = Ideal.exp (k0_pay3 (F := Ideal) v0 v2 v5 v19 v22 (ix2 p 4)) := by
  unfold k0_pay6
  exact congrArg Ideal.exp (col_apply _ 4 slices_S256x7_o0_4_S256x1 p 4 rfl)

theorem pay7_apply (v0 : Vec Ideal S256x3 .f32) (v2 : Vec Ideal S3x4096 .bf16) (v5 : Vec Ideal S1x4096 .f32)
    (v19 : Vec Ideal S1024x7 .bf16) (v22 : Vec Ideal S1x7 .f32) (v36 : Vec Ideal S256x1 .f32) (p : Fin 256) :
    k0_pay7 (F := Ideal) v0 v2 v5 v19 v22 v36 (ix2 p 0)
      = k0_pay3 (F := Ideal) v0 v2 v5 v19 v22 (ix2 p 1)
        + Ideal.exp (k0_pay3 (F := Ideal) v0 v2 v5 v19 v22 (ix2 p 3)) * v36 (ix2 p 0) := by
  unfold k0_pay7
  have e1 := col_apply (k0_pay3 (F := Ideal) v0 v2 v5 v19 v22) 1 slices_S256x7_o0_1_S256x1 p 1 rfl
  have e3 := col_apply (k0_pay3 (F := Ideal) v0 v2 v5 v19 v22) 3 slices_S256x7_o0_3_S256x1 p 3 rfl
  show extractStridedSlice S256x1 ![0, 1] (k0_pay3 (F := Ideal) v0 v2 v5 v19 v22) slices_S256x7_o0_1_S256x1 (ix2 p 0)
      + Ideal.exp (extractStridedSlice S256x1 ![0, 3] (k0_pay3 (F := Ideal) v0 v2 v5 v19 v22) slices_S256x7_o0_3_S256x1 (ix2 p 0)) * v36 (ix2 p 0) = _
  rw [e1, e3]

theorem pay8_apply (v0 : Vec Ideal S256x3 .f32) (v2 : Vec Ideal S3x4096 .bf16) (v5 : Vec Ideal S1x4096 .f32)
    (v19 : Vec Ideal S1024x7 .bf16) (v22 : Vec Ideal S1x7 .f32) (v36 : Vec Ideal S256x1 .f32) (p : Fin 256) :
    k0_pay8 (F := Ideal) v0 v2 v5 v19 v22 v36 (ix2 p 0)
      = k0_pay3 (F := Ideal) v0 v2 v5 v19 v22 (ix2 p 2)
        + Ideal.tanh (k0_pay3 (F := Ideal) v0 v2 v5 v19 v22 (ix2 p 5)) * Ideal.exp (k0_pay3 (F := Ideal) v0 v2 v5 v19 v22 (ix2 p 4))
          * v36 (ix2 p 0) := by
  unfold k0_pay8
  have e2 := col_apply (k0_pay3 (F := Ideal) v0 v2 v5 v19 v22) 2 slices_S256x7_o0_2_S256x1 p 2 rfl
  show extractStridedSlice S256x1 ![0, 2] (k0_pay3 (F := Ideal) v0 v2 v5 v19 v22) slices_S256x7_o0_2_S256x1 (ix2 p 0)
      + k0_pay5 (F := Ideal) v0 v2 v5 v19 v22 (ix2 p 0) * k0_pay6 (F := Ideal) v0 v2 v5 v19 v22 (ix2 p 0) * v36 (ix2 p 0) = _
  rw [e2, pay5_apply, pay6_apply]

/-- The last stored column from the columns it reads. -/
theorem pay1_apply (v33 v35 : FVec Ideal S256x1 .f32) (v37 : Vec Ideal S256x1 .f32) (v42 : FVec Ideal S256x1 .f32) (p : Fin 256) :
    k0_pay1 (F := Ideal) v33 v35 v37 v42 (ix2 p 0)
      = v42 (ix2 p 0) + v35 (ix2 p 0) * Ideal.sqrt (max (Ideal.ofBits .f32 0x3F800000#32 - v33 (ix2 p 0) * v33 (ix2 p 0))
          (Ideal.ofBits .f32 0x00000000#32)) * v37 (ix2 p 0) := rfl

/-- The first stored column: the comparison's bit, widened and converted, is the bit as a number. -/
theorem pay2_apply (v32 : FVec Ideal S256x1 .f32) (v52 : Vec Ideal S256x1 .f32) (p : Fin 256) :
    k0_pay2 (F := Ideal) v32 v52 (ix2 p 0)
      = (((Ideal.cmp .olt (v52 (ix2 p 0)) (v32 (ix2 p 0))).toNat : ℝ) : EReal) := by
  unfold k0_pay2
  exact Cert.Mdn.bit_signed_eq _

/-! ## The three stored columns as the row's outputs -/

/-- Row `p` of the parameter matrix is the row function's seven parameters. -/
theorem row_eq (x0 : Vec Ideal S256x3 .f32) (x1 : Vec Ideal S3x4096 .bf16) (x2 : Vec Ideal S1x4096 .f32)
    (x3 : Vec Ideal S1024x7 .bf16) (x4 : Vec Ideal S1x7 .f32) (p : Fin 256) :
    (fun c : Fin 7 => k0_pay3 (F := Ideal) x0 x1 x2 x3 x4 (ix2 p c))
      = (Cert.Mdn.head (Cert.Mdn.hidden (Cert.Mdn.gate (fun k => x0 (ix2 p k)) (fun j k => x1 (ix2 k j)) (fun j => x2 (ix2 0 j))))
            (fun j k => x3 (ix2 k j)) (fun j => x4 (ix2 0 j))) :=
  funext fun c => pay3_apply x0 x1 x2 x3 x4 p c

theorem eos_val (x0 : Vec Ideal S256x3 .f32) (x1 : Vec Ideal S3x4096 .bf16) (x2 : Vec Ideal S1x4096 .f32)
    (x3 : Vec Ideal S1024x7 .bf16) (x4 : Vec Ideal S1x7 .f32) (x6 : Vec Ideal S256x1 .f32) (p : Fin 256) :
    k0_pay2 (F := Ideal) (k0_pay4 x0 x1 x2 x3 x4) x6 (ix2 p 0)
      = Cert.Mdn.eos (Cert.Mdn.head (Cert.Mdn.hidden (Cert.Mdn.gate (fun k => x0 (ix2 p k)) (fun j k => x1 (ix2 k j)) (fun j => x2 (ix2 0 j))))
            (fun j k => x3 (ix2 k j)) (fun j => x4 (ix2 0 j))) (x6 (ix2 p 0)) := by
  rw [pay2_apply, pay4_apply, ← row_eq]
  rfl

theorem xs_val (x0 : Vec Ideal S256x3 .f32) (x1 : Vec Ideal S3x4096 .bf16) (x2 : Vec Ideal S1x4096 .f32)
    (x3 : Vec Ideal S1024x7 .bf16) (x4 : Vec Ideal S1x7 .f32) (z1 : Vec Ideal S256x1 .f32) (p : Fin 256) :
    k0_pay7 (F := Ideal) x0 x1 x2 x3 x4 z1 (ix2 p 0)
      = Cert.Mdn.xs (Cert.Mdn.head (Cert.Mdn.hidden (Cert.Mdn.gate (fun k => x0 (ix2 p k)) (fun j k => x1 (ix2 k j)) (fun j => x2 (ix2 0 j))))
            (fun j k => x3 (ix2 k j)) (fun j => x4 (ix2 0 j))) (z1 (ix2 p 0)) := by
  rw [pay7_apply, ← row_eq]
  rfl

theorem ys_val (x0 : Vec Ideal S256x3 .f32) (x1 : Vec Ideal S3x4096 .bf16) (x2 : Vec Ideal S1x4096 .f32)
    (x3 : Vec Ideal S1024x7 .bf16) (x4 : Vec Ideal S1x7 .f32) (z1 z2 : Vec Ideal S256x1 .f32) (p : Fin 256) :
    k0_pay1 (F := Ideal) (k0_pay5 x0 x1 x2 x3 x4) (k0_pay6 x0 x1 x2 x3 x4) z2 (k0_pay8 x0 x1 x2 x3 x4 z1) (ix2 p 0)
      = Cert.Mdn.ys (Cert.Mdn.head (Cert.Mdn.hidden (Cert.Mdn.gate (fun k => x0 (ix2 p k)) (fun j k => x1 (ix2 k j)) (fun j => x2 (ix2 0 j))))
            (fun j k => x3 (ix2 k j)) (fun j => x4 (ix2 0 j))) (z1 (ix2 p 0)) (z2 (ix2 p 0)) := by
  rw [pay1_apply, pay8_apply, pay5_apply, pay6_apply, ← row_eq]
  rfl

/-! ## The loads and the stores' rectangles -/

theorem zero_off : (![0, 0] : Fin 2 → Nat) = fun _ => 0 := funext fun a => by fin_cases a <;> rfl

/-- The two column loads of the normal numbers' block. -/
theorem ld_z1 (x5 : Vec Ideal S256x2 .f32) (p : Fin 256) : View.ld x5 r0_5 (ix2 p 0) = x5 (ix2 p 0) :=
  congrArg x5 (funext fun a => Fin.ext (by
    match a with
    | ⟨0, _⟩ => show 0 + 1 * p.val = p.val; omega
    | ⟨1, _⟩ => rfl))
theorem ld_z2 (x5 : Vec Ideal S256x2 .f32) (p : Fin 256) : View.ld x5 r0_6 (ix2 p 0) = x5 (ix2 p 1) :=
  congrArg x5 (funext fun a => Fin.ext (by
    match a with
    | ⟨0, _⟩ => show 0 + 1 * p.val = p.val; omega
    | ⟨1, _⟩ => rfl))

/-- Row `p` of each one-column store rectangle is the block's entry at that row and the rectangle's column. -/
theorem emb_col0 (p : Fin 256) : r0_8.emb (ix2 p 0) = ix2 p 0 :=
  funext fun a => Fin.ext (by
    match a with
    | ⟨0, _⟩ => show 0 + 1 * p.val = p.val; omega
    | ⟨1, _⟩ => rfl)
theorem emb_col1 (p : Fin 256) : r0_9.emb (ix2 p 0) = ix2 p 1 :=
  funext fun a => Fin.ext (by
    match a with
    | ⟨0, _⟩ => show 0 + 1 * p.val = p.val; omega
    | ⟨1, _⟩ => rfl)
theorem emb_col2 (p : Fin 256) : r0_10.emb (ix2 p 0) = ix2 p 2 :=
  funext fun a => Fin.ext (by
    match a with
    | ⟨0, _⟩ => show 0 + 1 * p.val = p.val; omega
    | ⟨1, _⟩ => rfl)

/-- An entry of column 0 or 1 is not under the store of column 2, nor one of column 0 under the store of column 1. -/
theorem not_mem_col2 (p : Fin 256) (c : Fin 3) (hc : c.val < 2) : ix2 p c ∉ r0_10.set := fun h => by
  have := (Rect.mem_set_unit.mp h 1).1
  have e : (ix2 p c (1 : Fin 2)).val = c.val := rfl
  have e' : (![0, 2] : Fin 2 → Nat) 1 = 2 := rfl
  omega
theorem not_mem_col1 (p : Fin 256) : ix2 p (0 : Fin 3) ∉ r0_9.set := fun h => by
  have := (Rect.mem_set_unit.mp h 1).1
  have e : (ix2 p (0 : Fin 3) (1 : Fin 2)).val = 0 := rfl
  have e' : (![0, 1] : Fin 2 → Nat) 1 = 1 := rfl
  omega

/-- The output block with the whole-buffer loads read through. -/
theorem out0_7_eq (x0 : Vec Ideal S256x3 .f32) (x1 : Vec Ideal S3x4096 .bf16) (x2 : Vec Ideal S1x4096 .f32)
    (x3 : Vec Ideal S1024x7 .bf16) (x4 : Vec Ideal S1x7 .f32) (x5 : Vec Ideal S256x2 .f32) (x6 : Vec Ideal S256x1 .f32) :
    out0_7 (F := Ideal) x0 x1 x2 x3 x4 x5 x6
      = View.canon [⟨r0_10, k0_pay1 (F := Ideal) (k0_pay5 x0 x1 x2 x3 x4) (k0_pay6 x0 x1 x2 x3 x4) (View.ld x5 r0_6) (k0_pay8 x0 x1 x2 x3 x4 (View.ld x5 r0_5))⟩,
          ⟨r0_9, k0_pay7 (F := Ideal) x0 x1 x2 x3 x4 (View.ld x5 r0_5)⟩,
          ⟨r0_8, k0_pay2 (F := Ideal) (k0_pay4 x0 x1 x2 x3 x4) x6⟩] := by
  unfold out0_7
  rw [View.ld_unit_zero (Val := Elt Ideal) (e := .f32) zero_off inb_S256x3_S256x3_0_0 x0,
    View.ld_unit_zero (Val := Elt Ideal) (e := .bf16) zero_off inb_S3x4096_S3x4096_0_0 x1,
    View.ld_unit_zero (Val := Elt Ideal) (e := .f32) zero_off inb_S1x4096_S1x4096_0_0 x2,
    View.ld_unit_zero (Val := Elt Ideal) (e := .bf16) zero_off inb_S1024x7_S1024x7_0_0 x3,
    View.ld_unit_zero (Val := Elt Ideal) (e := .f32) zero_off inb_S1x7_S1x7_0_0 x4,
    View.ld_unit_zero (Val := Elt Ideal) (e := .f32) zero_off inb_S256x1_S256x1_0_0 x6]

/-- The canon of the three column stores, at row `p` of each column: the payload of that column's store. -/
theorem canon3_col0 (w2 w1 w0 : Vec Ideal S256x1 .f32) (p : Fin 256) :
    View.canon (Val := Elt Ideal) [⟨r0_10, w2⟩, ⟨r0_9, w1⟩, ⟨r0_8, w0⟩] (ix2 p 0) = w0 (ix2 p 0) := by
  refine (View.canon_cons_of_not_mem (⟨r0_10, w2⟩ : View.Piece (Elt Ideal) S256x3 .f32) [⟨r0_9, w1⟩, ⟨r0_8, w0⟩]
    (not_mem_col2 p 0 (by decide))).trans ?_
  refine (View.canon_cons_of_not_mem (⟨r0_9, w1⟩ : View.Piece (Elt Ideal) S256x3 .f32) [⟨r0_8, w0⟩] (not_mem_col1 p)).trans ?_
  rw [← emb_col0 p, View.canon_cons_emb]
theorem canon3_col1 (w2 w1 w0 : Vec Ideal S256x1 .f32) (p : Fin 256) :
    View.canon (Val := Elt Ideal) [⟨r0_10, w2⟩, ⟨r0_9, w1⟩, ⟨r0_8, w0⟩] (ix2 p 1) = w1 (ix2 p 0) := by
  refine (View.canon_cons_of_not_mem (⟨r0_10, w2⟩ : View.Piece (Elt Ideal) S256x3 .f32) [⟨r0_9, w1⟩, ⟨r0_8, w0⟩]
    (not_mem_col2 p 1 (by decide))).trans ?_
  rw [← emb_col1 p, View.canon_cons_emb]
theorem canon3_col2 (w2 w1 w0 : Vec Ideal S256x1 .f32) (p : Fin 256) :
    View.canon (Val := Elt Ideal) [⟨r0_10, w2⟩, ⟨r0_9, w1⟩, ⟨r0_8, w0⟩] (ix2 p 2) = w2 (ix2 p 0) := by
  rw [← emb_col2 p, View.canon_cons_emb]

/-- The body's output block at row `p`, column `q`: output `q` of the row whose input is row `p` of the sequence block,
    with the weights read transposed (the kernel is handed `W_ihᵀ` and `W_outᵀ`) and the biases as one-row matrices. -/
theorem out_block (x0 : Vec Ideal S256x3 .f32) (x1 : Vec Ideal S3x4096 .bf16) (x2 : Vec Ideal S1x4096 .f32)
    (x3 : Vec Ideal S1024x7 .bf16) (x4 : Vec Ideal S1x7 .f32) (x5 : Vec Ideal S256x2 .f32) (x6 : Vec Ideal S256x1 .f32)
    (p : Fin 256) (q : Fin 3) :
    out0_7 (F := Ideal) x0 x1 x2 x3 x4 x5 x6 (ix2 p q)
      = Cert.Mdn.outRow
          (Cert.Mdn.head (Cert.Mdn.hidden (Cert.Mdn.gate (fun k => x0 (ix2 p k)) (fun j k => x1 (ix2 k j)) (fun j => x2 (ix2 0 j))))
            (fun j k => x3 (ix2 k j)) (fun j => x4 (ix2 0 j)))
          (x6 (ix2 p 0)) (x5 (ix2 p 0)) (x5 (ix2 p 1)) q := by
  rw [out0_7_eq]
  match q with
  | ⟨0, _⟩ => exact (canon3_col0 _ _ _ p).trans (eos_val x0 x1 x2 x3 x4 x6 p)
  | ⟨1, _⟩ =>
    refine (canon3_col1 _ _ _ p).trans ((xs_val x0 x1 x2 x3 x4 (View.ld x5 r0_5) p).trans ?_)
    rw [ld_z1]
    rfl
  | ⟨2, _⟩ =>
    refine (canon3_col2 _ _ _ p).trans ((ys_val x0 x1 x2 x3 x4 (View.ld x5 r0_5) (View.ld x5 r0_6) p).trans ?_)
    rw [ld_z1, ld_z2]
    rfl

end Cert.Mdn.Block

end
-- ==== Proof.KernelValue.lean ====
/-
  The kernel's result array is `Mdn.out` of its arguments.

  The grid has 256 points; point t stages rows 256·t … 256·t + 255 of the sequence, of the two noise arrays and of the
  result, and the whole of the four small arrays the host prepares before the launch: W_ihᵀ and W_outᵀ (transposes,
  then a change of float format that is the identity on the extended reals), the two gate biases added and laid out
  as one row, and the output bias as one row.  So row p of point t's blocks is row 256·t + p of the arguments, the body's
  block result (`Block.out_block`) at (p, q) is `Mdn.out` at (256·t + p, q), and the 256 blocks tile the result array.
-/
import proofs.«105948_j6914897346673_1_alg».proof.Proof.Gen.KernelIdeal.Value
import proofs.«105948_j6914897346673_1_alg».proof.Proof.BlockOut
import proofs.«105948_j6914897346673_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.Mdn.Kernel

open Cert.KernelIdeal Cert.KernelIdeal.Gen Cert.KernelIdeal.Value

variable (m : (ℓ : Loc nD τ sig) → Buf (Elt Ideal) ℓ) (ρ : Dev nD → PrngReg)

/-! ## The index maps, decided over the grid -/

/-- The row-blocked windows (sequence, the two noise arrays, the result) are at block `t` on the row axis and block 0 on
    the column axis at point `t`; the four small arrays are staged whole at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `p` of point `t`'s blocks is this row of the arrays. -/
def row (t : Fin cfg0.N) (p : Fin 256) : Fin 65536 :=
  ⟨t.val * 256 + p.val, by have h1 := t.isLt; have h2 : cfg0.N = 256 := N_0; have h3 := p.isLt; omega⟩

/-! ## The windows' blocks as rows of the arrays the region finds -/

theorem seq_blk (c : Dev nD) (t : Fin cfg0.N) (p : Fin 256) (k : Fin 3) :
    (iblk m c 0 t : Vec Ideal S256x3 .f32) (ix2 p k) = (V m c main_arg0 : S65536x3.Idx → EReal) (ix2 (row t p) k) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 256 + 1 * p.val = t.val * 256 + p.val; rw [e0]; omega
  | ⟨1, _⟩ => show win0_0.index t (1 : Fin 2) * 3 + 1 * k.val = k.val; rw [e1]; omega

theorem z_blk (c : Dev nD) (t : Fin cfg0.N) (p : Fin 256) (k : Fin 2) :
    (iblk m c 5 t : Vec Ideal S256x2 .f32) (ix2 p k) = (V m c main_arg7 : S65536x2.Idx → EReal) (ix2 (row t p) k) := by
  obtain ⟨-, -, -, -, -, -, -, -, -, -, e0, e1, -⟩ := idx_facts t
  unfold iblk
  rw [View.read_apply]
  show V m c main_arg7 _ = V m c main_arg7 _
  congr 1
  funext a
  apply Fin.ext
  match a with
  | ⟨0, _⟩ => show win0_5.index t (0 : Fin 2) * 256 + 1 * p.val = t.val * 256 + p.val; rw [e0]; omega
  | ⟨1, _⟩ => show win0_5.index t (1 : Fin 2) * 2 + 1 * k.val = k.val; rw [e1]; omega

theorem u_blk (c : Dev nD) (t : Fin cfg0.N) (p : Fin 256) (k : Fin 1) :
    (iblk m c 6 t : Vec Ideal S256x1 .f32) (ix2 p k) = (V m c main_arg8 : S65536x1.Idx → EReal) (ix2 (row t p) k) := by
  obtain ⟨-, -, -, -, -, -, -, -, -, -, -, -, e0, e1, -⟩ := idx_facts t
  unfold iblk
  rw [View.read_apply]
  show V m c main_arg8 _ = V m c main_arg8 _
  congr 1
  funext a
  apply Fin.ext
  match a with
  | ⟨0, _⟩ => show win0_6.index t (0 : Fin 2) * 256 + 1 * p.val = t.val * 256 + p.val; rw [e0]; omega
  | ⟨1, _⟩ => show win0_6.index t (1 : Fin 2) * 1 + 1 * k.val = k.val; rw [e1]; omega

/-- The four small arrays are staged whole: the block at any point is the array. -/
theorem wih_blk (c : Dev nD) (t : Fin cfg0.N) (k : Fin 3) (j : Fin 4096) :
    (iblk m c 1 t : Vec Ideal S3x4096 .bf16) (ix2 k j) = (V m c main_v1 : S3x4096.Idx → EReal) (ix2 k j) := by
  obtain ⟨-, -, e0, e1, -⟩ := idx_facts t
  unfold iblk
  rw [View.read_apply]
  show V m c main_v1 _ = V m c main_v1 _
  congr 1
  funext a
  apply Fin.ext
  match a with
  | ⟨0, _⟩ => show win0_1.index t (0 : Fin 2) * 3 + 1 * k.val = k.val; rw [e0]; omega
  | ⟨1, _⟩ => show win0_1.index t (1 : Fin 2) * 4096 + 1 * j.val = j.val; rw [e1]; omega

theorem bias_blk (c : Dev nD) (t : Fin cfg0.N) (u : Fin 1) (j : Fin 4096) :
    (iblk m c 2 t : Vec Ideal S1x4096 .f32) (ix2 u j) = (V m c main_v5 : S1x4096.Idx → EReal) (ix2 u j) := by
  obtain ⟨-, -, -, -, e0, e1, -⟩ := idx_facts t
  unfold iblk
  rw [View.read_apply]
  show V m c main_v5 _ = V m c main_v5 _
  congr 1
  funext a
  apply Fin.ext
  match a with
  | ⟨0, _⟩ => show win0_2.index t (0 : Fin 2) * 1 + 1 * u.val = u.val; rw [e0]; omega
  | ⟨1, _⟩ => show win0_2.index t (1 : Fin 2) * 4096 + 1 * j.val = j.val; rw [e1]; omega

theorem wout_blk (c : Dev nD) (t : Fin cfg0.N) (k : Fin 1024) (j : Fin 7) :
    (iblk m c 3 t : Vec Ideal S1024x7 .bf16) (ix2 k j) = (V m c main_v3 : S1024x7.Idx → EReal) (ix2 k j) := by
  obtain ⟨-, -, -, -, -, -, e0, e1, -⟩ := idx_facts t
  unfold iblk
  rw [View.read_apply]
  show V m c main_v3 _ = V m c main_v3 _
  congr 1
  funext a
  apply Fin.ext
  match a with
  | ⟨0, _⟩ => show win0_3.index t (0 : Fin 2) * 1024 + 1 * k.val = k.val; rw [e0]; omega
  | ⟨1, _⟩ => show win0_3.index t (1 : Fin 2) * 7 + 1 * j.val = j.val; rw [e1]; omega

theorem bout_blk (c : Dev nD) (t : Fin cfg0.N) (u : Fin 1) (j : Fin 7) :
    (iblk m c 4 t : Vec Ideal S1x7 .f32) (ix2 u j) = (V m c main_v6 : S1x7.Idx → EReal) (ix2 u j) := by
  obtain ⟨-, -, -, -, -, -, -, -, e0, e1, -⟩ := idx_facts t
  unfold iblk
  rw [View.read_apply]
  show V m c main_v6 _ = V m c main_v6 _
  congr 1
  funext a
  apply Fin.ext
  match a with
  | ⟨0, _⟩ => show win0_4.index t (0 : Fin 2) * 1 + 1 * u.val = u.val; rw [e0]; omega
  | ⟨1, _⟩ => show win0_4.index t (1 : Fin 2) * 7 + 1 * j.val = j.val; rw [e1]; omega

/-! ## What the host prepares before the launch -/

/-- The first weight matrix as the region finds it: `W_ih` transposed (the change of format is the identity). -/
theorem V_wih (c : Dev nD) (k : Fin 3) (j : Fin 4096) :
    (V m c main_v1 : S3x4096.Idx → EReal) (ix2 k j) = (m ((c : Thread nD τ).loc main_arg1) : S4096x3.Idx → EReal) (ix2 j k) := by
  have e : (V m c main_v1 : S3x4096.Idx → EReal)
      = truncf (F := Ideal) .bf16 (transpose S3x4096 [1, 0] (m ((c : Thread nD τ).loc main_arg1) : S4096x3.Idx → EReal) transposes_S4096x3_S3x4096_1_0) bitsLt_bf16_f32 := by
    dsimp only [V, hostOps0]; after_results
  rw [e]
  exact transpose_ix2_apply _ _ k j

/-- The second weight matrix as the region finds it: `W_out` transposed. -/
theorem V_wout (c : Dev nD) (k : Fin 1024) (j : Fin 7) :
    (V m c main_v3 : S1024x7.Idx → EReal) (ix2 k j) = (m ((c : Thread nD τ).loc main_arg5) : S7x1024.Idx → EReal) (ix2 j k) := by
  have e : (V m c main_v3 : S1024x7.Idx → EReal)
      = truncf (F := Ideal) .bf16 (transpose S1024x7 [1, 0] (m ((c : Thread nD τ).loc main_arg5) : S7x1024.Idx → EReal) transposes_S7x1024_S1024x7_1_0) bitsLt_bf16_f32 := by
    dsimp only [V, hostOps0]; after_results
  rw [e]
  exact transpose_ix2_apply _ _ k j

/-- The two gate bias vectors of the launch, as functions to the extended reals. -/
abbrev bih (c : Dev nD) : S4096.Idx → EReal := m ((c : Thread nD τ).loc main_arg3)
abbrev bhh (c : Dev nD) : S4096.Idx → EReal := m ((c : Thread nD τ).loc main_arg4)

/-- The gate bias row as the region finds it: the two bias vectors added. -/
theorem V_bias (c : Dev nD) (u : Fin 1) (j : Fin 4096) :
    (V m c main_v5 : S1x4096.Idx → EReal) (ix2 u j) = bih m c (ix1 j) + bhh m c (ix1 j) := by
  have e : (V m c main_v5 : S1x4096.Idx → EReal)
      = shapeCast S1x4096 (addf (F := Ideal) (φ := .f32) (bih m c) (bhh m c)) shapeCasts_S4096_S1x4096 := by
    dsimp only [V, hostOps0]; after_results; rfl
  rw [e, shapeCast_a_1a_apply]
  rfl

/-- The output bias row as the region finds it. -/
theorem V_bout (c : Dev nD) (u : Fin 1) (j : Fin 7) :
    (V m c main_v6 : S1x7.Idx → EReal) (ix2 u j) = (m ((c : Thread nD τ).loc main_arg6) : S7.Idx → EReal) (ix1 j) := by
  have e : (V m c main_v6 : S1x7.Idx → EReal)
      = shapeCast S1x7 (m ((c : Thread nD τ).loc main_arg6) : S7.Idx → EReal) shapeCasts_S7_S1x7 := by
    dsimp only [V, hostOps0]; after_results; rfl
  rw [e, shapeCast_a_1a_apply]

/-! ## What each point writes back, and the array after the run -/

/-- The result array of the launch on core `c`: `Mdn.out` of the argument arrays as launched. -/
abbrev result (c : Dev nD) : S65536x3.Idx → EReal :=
  Cert.Mdn.out (m ((c : Thread nD τ).loc main_arg0)) (m ((c : Thread nD τ).loc main_arg1)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8))

/-- Point `t` writes back block `t` of the result array: at row `p`, column `q` of the block the body's value is output
    `q` of row `256·t + p` of the arguments. -/
theorem flushed_eq (c : Dev nD) (t : Fin cfg0.N) :
    (dats m 0 c).flushed 7 t = ((cfg0.win 7).blk t).view.read (Elt Ideal) (result m c) := by
  obtain ⟨-, -, -, -, -, -, -, -, -, -, -, -, -, -, e0, e1⟩ := idx_facts t
  rw [flushed7]
  funext y
  obtain ⟨p, q, rfl⟩ : ∃ (p : Fin 256) (q : Fin 3), y = ix2 p q := ⟨y 0, y 1, eq_ix2 y⟩
  have hemb : ((cfg0.win 7).blk t).view.emb (ix2 p q) = (ix2 (row t p) q : S65536x3.Idx) := by
    funext a
    apply Fin.ext
    match a with
    | ⟨0, _⟩ => show win0_7.index t (0 : Fin 2) * 256 + 1 * p.val = t.val * 256 + p.val; rw [e0]; omega
    | ⟨1, _⟩ => show win0_7.index t (1 : Fin 2) * 3 + 1 * q.val = q.val; rw [e1]; omega
  show out0_7 (iblk m c 0 t) (iblk m c 1 t) (iblk m c 2 t) (iblk m c 3 t) (iblk m c 4 t) (iblk m c 5 t) (iblk m c 6 t) (ix2 p q)
    = result m c (((cfg0.win 7).blk t).view.emb (ix2 p q))
  rw [hemb]
  refine (Block.out_block (iblk m c 0 t) (iblk m c 1 t) (iblk m c 2 t) (iblk m c 3 t) (iblk m c 4 t) (iblk m c 5 t) (iblk m c 6 t) p q).trans ?_
  have hA : (fun k => (iblk m c 0 t : Vec Ideal S256x3 .f32) (ix2 p k))
      = fun k => (m ((c : Thread nD τ).loc main_arg0) : S65536x3.Idx → EReal) (ix2 (row t p) k) :=
    funext fun k => by rw [seq_blk, V_main_arg0]
  have hB : (fun j k => (iblk m c 1 t : Vec Ideal S3x4096 .bf16) (ix2 k j))
      = fun j k => (m ((c : Thread nD τ).loc main_arg1) : S4096x3.Idx → EReal) (ix2 j k) :=
    funext fun j => funext fun k => by rw [wih_blk, V_wih]
  have hC : (fun j => (iblk m c 2 t : Vec Ideal S1x4096 .f32) (ix2 0 j)) = fun j => bih m c (ix1 j) + bhh m c (ix1 j) :=
    funext fun j => by rw [bias_blk, V_bias]
  have hD : (fun j k => (iblk m c 3 t : Vec Ideal S1024x7 .bf16) (ix2 k j))
      = fun j k => (m ((c : Thread nD τ).loc main_arg5) : S7x1024.Idx → EReal) (ix2 j k) :=
    funext fun j => funext fun k => by rw [wout_blk, V_wout]
  have hE : (fun j => (iblk m c 4 t : Vec Ideal S1x7 .f32) (ix2 0 j))
      = fun j => (m ((c : Thread nD τ).loc main_arg6) : S7.Idx → EReal) (ix1 j) :=
    funext fun j => by rw [bout_blk, V_bout]
  rw [hA, hB, hC, hD, hE, u_blk, z_blk, z_blk, V_main_arg8, V_main_arg7]
  rfl

/-- An index of the result array is in point `t`'s block iff each coordinate is in the block's range on its axis. -/
theorem mem_blk (t : Fin cfg0.N) (i : S65536x3.Idx) :
    i ∈ ((cfg0.win 7).blk t).view.set
      ↔ ∀ a : Fin 2, win0_7.index t a * S256x3.size a ≤ (i a).val ∧ (i a).val < win0_7.index t a * S256x3.size a + S256x3.size a := by
  show i ∈ ((View.whole main_v7).slice (win0_7.rect t)).set ↔ _
  rw [View.set_slice_whole, Rect.mem_set_unit]
  exact Iff.rfl

/-- The 256 blocks tile the result array: row `r` is in the block of point `r / 256`. -/
theorem cover (i : S65536x3.Idx) : ∃ t : Fin cfg0.N, (cfg0.win 7).flush t = true ∧ i ∈ ((cfg0.win 7).blk t).view.set := by
  have hN : cfg0.N = 256 := N_0
  have hi0 : (i 0).val < 65536 := (i 0).isLt
  have hi1 : (i 1).val < 3 := (i 1).isLt
  have ht : (i 0).val / 256 < cfg0.N := by omega
  obtain ⟨-, -, -, -, -, -, -, -, -, -, -, -, -, -, e0, e1⟩ := idx_facts ⟨(i 0).val / 256, ht⟩
  refine ⟨⟨(i 0).val / 256, ht⟩, flush0_7 _, ?_⟩
  rw [mem_blk]
  intro a
  match a with
  | ⟨0, _⟩ =>
    show win0_7.index ⟨(i 0).val / 256, ht⟩ (0 : Fin 2) * 256 ≤ (i 0).val
      ∧ (i 0).val < win0_7.index ⟨(i 0).val / 256, ht⟩ (0 : Fin 2) * 256 + 256
    rw [e0]
    show (i 0).val / 256 * 256 ≤ (i 0).val ∧ (i 0).val < (i 0).val / 256 * 256 + 256
    omega
  | ⟨1, _⟩ =>
    show win0_7.index ⟨(i 0).val / 256, ht⟩ (1 : Fin 2) * 3 ≤ (i 1).val
      ∧ (i 1).val < win0_7.index ⟨(i 0).val / 256, ht⟩ (1 : Fin 2) * 3 + 3
    rw [e1]
    omega

/-- The result array after the run is `Mdn.out` of the arguments. -/
theorem final (c : Dev nD) : (dats m 0 c).arrAt 7 cfg0.N = result m c :=
  (dats m 0 c).arrAt_eq_of_cover 7 (result m c) (fun t _ => flushed_eq m c t) cover

/-- The kernel's run: every weakly fair execution ends with the result array at `Mdn.out` of the arguments and the
    arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.Mdn.Kernel

end
-- ==== Proof.lean ====
/-
  One fused kernel against its jnp reference, equal over the extended reals.

  The network: every timestep runs an LSTM cell from the zero state, so for a row x of the sequence the gate
  pre-activations are g = x · W_ihᵀ + (b_ih + b_hh) (the recurrent weights multiply the zero hidden state and are never
  read), the hidden state is h = σ(g_o) · tanh(σ(g_i) · tanh(g_g)), the seven mixture parameters are l = h · W_outᵀ + b_out,
  and the row's three outputs are the end-of-stroke draw 1[u < σ(l₀)] and the bivariate normal sample
  x = l₁ + e^{l₃} z₁,  y = l₂ + tanh(l₅) e^{l₄} z₁ + e^{l₄} √(max(1 − tanh(l₅)², 0)) z₂  (Proof/Spec.lean, `Mdn.out`).

  The reference computes this for all 65536 rows at once on the host: two dot_generals against transposed weights,
  slices for the gate quarters and the parameter columns, each logistic spelt as 1 / (1 + e⁻ˣ), the three output
  columns joined (Proof/RefOut.lean).  The kernel computes it 256 rows at a time: the host hands it W_ihᵀ, W_outᵀ, the
  summed gate bias and the output bias as one-row matrices, each grid point multiplies its row block on the matrix unit
  into a zero accumulator, applies the same pointwise functions and stores the three output columns of its block
  (Proof/BlockOut.lean); block t covers rows 256 t … 256 t + 255 and the blocks tile the result (Proof/KernelValue.lean).
  On the extended reals a change of float format is the identity, the matrix unit's product into zero is the plain sum,
  the kernel's logistic is the reference's quotient, and a comparison bit widened and read signed is the bit read
  unsigned; no law that needs finiteness is used, so the precondition is never opened.

  The three frames are the generated ones (the reference's is its generated run with the result dropped); the ideal
  pass rewrote nothing, so `preserves` is trivial.
-/
import proofs.«105948_j6914897346673_1_alg».proof.Defs
import proofs.«105948_j6914897346673_1_alg».proof.Proof.Gen.Kernel
import proofs.«105948_j6914897346673_1_alg».proof.Proof.Gen.Kernel.Skeleton
import proofs.«105948_j6914897346673_1_alg».proof.Proof.Gen.Kernel.Launch
import proofs.«105948_j6914897346673_1_alg».proof.Proof.Gen.Kernel.Points
import proofs.«105948_j6914897346673_1_alg».proof.Proof.Gen.Kernel.Frame
import proofs.«105948_j6914897346673_1_alg».proof.Proof.Gen.KernelIdeal
import proofs.«105948_j6914897346673_1_alg».proof.Proof.Gen.KernelIdeal.Skeleton
import proofs.«105948_j6914897346673_1_alg».proof.Proof.Gen.KernelIdeal.Launch
import proofs.«105948_j6914897346673_1_alg».proof.Proof.Gen.KernelIdeal.Points
import proofs.«105948_j6914897346673_1_alg».proof.Proof.Gen.KernelIdeal.Frame
import proofs.«105948_j6914897346673_1_alg».proof.Proof.Gen.ReferenceIdeal
import proofs.«105948_j6914897346673_1_alg».proof.Proof.Gen.Pre_finite_inputs
import proofs.«105948_j6914897346673_1_alg».proof.Proof.Gen.KernelIdeal.Value
import proofs.«105948_j6914897346673_1_alg».proof.Proof.Gen.ReferenceIdeal.Run
import proofs.«105948_j6914897346673_1_alg».proof.Proof.Gen.ReferenceIdeal.Read
import proofs.«105948_j6914897346673_1_alg».proof.Proof.Spec
import proofs.«105948_j6914897346673_1_alg».proof.Proof.RefOut
import proofs.«105948_j6914897346673_1_alg».proof.Proof.BlockOut
import proofs.«105948_j6914897346673_1_alg».proof.Proof.KernelValue
import Idealize.ShloMosaic.Adequacy
import Idealize.ShloMosaic.Init

noncomputable section

namespace Cert.Proof

open Idealize.ShloMosaic Idealize.SL.Sem

/-- The word-level kernel runs and leaves its arguments unchanged: the generated frame. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference runs and leaves its arguments unchanged: its generated run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs end with the result array at `Mdn.out` of the arguments:
    the kernel by its run read block by block, the reference by its run read stage by stage. -/
theorem algebraic : Cert.algebraic_KernelIdeal_ReferenceIdeal := by
  intro m ρ m' ρ' _ hagree
  refine ⟨fun c => Cert.Mdn.Kernel.result m c, Cert.Mdn.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, -, h3, h4, h5, h6, h7, h8⟩ := hagree c
  rw [Cert.ReferenceIdeal.Read.val_main_v78_eq, Cert.Mdn.Ref.ref_out, h0, h1, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
